-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2x2048x512 : Shape := ⟨4, ![16, 2, 2048, 512]⟩
abbrev S1024x1024 : Shape := ⟨2, ![1024, 1024]⟩
abbrev S524288 : Shape := ⟨1, ![524288]⟩
abbrev S_ : Shape := ⟨0, ![]⟩

class Facts : Prop where
  bcast_S_S16x2x2048x512 : S_.BroadcastsInDim S16x2x2048x512 (![] : Fin 0 → Fin S16x2x2048x512.rank)
  reducesTo_S16x2x2048x512_S_d0_1_2_3 : S16x2x2048x512.ReducesTo [0, 1, 2, 3] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S524288 : S_.BroadcastsInDim S524288 (![] : Fin 0 → Fin S524288.rank)
  reducesTo_S524288_S_d0 : S524288.ReducesTo [0] S_

variable [Facts]

def fn {F : FTy → Type} [FloatOps F] (main_arg0 : FVec F S16x2x2048x512 .f32) (main_arg1 : FVec F S1024x1024 .f32) (main_arg2 : FVec F S524288 .f32) : IVec S_ 1 :=
  let main_v0 : FVec F S16x2x2048x512 .f32 := Host.absf main_arg0
  let main_cst : FVec F S_ .f32 := constant S_ .f32 0x7F800000#32
  let main_v1 : FVec F S16x2x2048x512 .f32 := broadcastInDim S16x2x2048x512 ![] bcast_S_S16x2x2048x512 main_cst
  let main_v2 : IVec S16x2x2048x512 1 := cmpf .olt main_v0 main_v1
  let main_c : IVec S_ 1 := constantI S_ 1 1#1
  let main_v3 : IVec S_ 1 := (fun x v => Host.reduce IntOp.andi x v reducesTo_S16x2x2048x512_S_d0_1_2_3 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S524288 .f32 := Host.absf main_arg2
  let main_cst_2 : FVec F S_ .f32 := constant S_ .f32 0x7F800000#32
  let main_v10 : FVec F S524288 .f32 := broadcastInDim S524288 ![] bcast_S_S524288 main_cst_2
  let main_v11 : IVec S524288 1 := cmpf .olt main_v9 main_v10
  let main_c_3 : IVec S_ 1 := constantI S_ 1 1#1
  let main_v12 : IVec S_ 1 := (fun x v => Host.reduce IntOp.andi x v reducesTo_S524288_S_d0 h_S_) main_v11 main_c_3
  let main_v13 : IVec S_ 1 := andi main_v8 main_v12
  main_v13
-- ==== Kernel.lean ====
abbrev S16x2x2048x512 : Shape := ⟨4, ![16, 2, 2048, 512]⟩
abbrev S1024x1024 : Shape := ⟨2, ![1024, 1024]⟩
abbrev S524288 : Shape := ⟨1, ![524288]⟩
abbrev S16x1x2048x512 : Shape := ⟨4, ![16, 1, 2048, 512]⟩
abbrev S16x2048x512 : Shape := ⟨3, ![16, 2048, 512]⟩
abbrev S16x2048x1024 : Shape := ⟨3, ![16, 2048, 1024]⟩
abbrev S32768x1024 : Shape := ⟨2, ![32768, 1024]⟩
abbrev S_ : Shape := ⟨0, ![]⟩
abbrev S16x2051x256 : Shape := ⟨3, ![16, 2051, 256]⟩
abbrev S16x2048x256 : Shape := ⟨3, ![16, 2048, 256]⟩
abbrev S16x525056 : Shape := ⟨2, ![16, 525056]⟩
abbrev S16x524288 : Shape := ⟨2, ![16, 524288]⟩
abbrev S1x524288 : Shape := ⟨2, ![1, 524288]⟩

abbrev nBuf : Space → Nat
  | .hbm => 46
  | .vmem => 5
  | .smem => 0
  | _ => 0

abbrev bufTy : (tb : Table) → Fin (tcTables nBuf tb) → BufTy
  | .hbm, ⟨0, _⟩ => ⟨S16x2x2048x512, .f32⟩
  | .hbm, ⟨1, _⟩ => ⟨S1024x1024, .f32⟩
  | .hbm, ⟨2, _⟩ => ⟨S524288, .f32⟩
  | .hbm, ⟨3, _⟩ => ⟨S16x1x2048x512, .f32⟩
  | .hbm, ⟨4, _⟩ => ⟨S16x2048x512, .f32⟩
  | .hbm, ⟨5, _⟩ => ⟨S16x1x2048x512, .f32⟩
  | .hbm, ⟨6, _⟩ => ⟨S16x2048x512, .f32⟩
  | .hbm, ⟨7, _⟩ => ⟨S16x2048x1024, .f32⟩
  | .hbm, ⟨8, _⟩ => ⟨S32768x1024, .f32⟩
  | .hbm, ⟨9, _⟩ => ⟨S32768x1024, .f32⟩
  | .hbm, ⟨10, _⟩ => ⟨S16x2048x1024, .f32⟩
  | .hbm, ⟨11, _⟩ => ⟨S_, .f32⟩
  | .hbm, ⟨12, _⟩ => ⟨S16x2051x256, .f32⟩
  | .hbm, ⟨13, _⟩ => ⟨S16x2048x256, .f32⟩
  | .hbm, ⟨14, _⟩ => ⟨S_, .i32⟩
  | .hbm, ⟨15, _⟩ => ⟨S_, .f32⟩
  | .hbm, ⟨16, _⟩ => ⟨S16x2051x256, .f32⟩
  | .hbm, ⟨17, _⟩ => ⟨S16x2051x256, .f32⟩
  | .hbm, ⟨18, _⟩ => ⟨S16x2048x256, .f32⟩
  | .hbm, ⟨19, _⟩ => ⟨S_, .i32⟩
  | .hbm, ⟨20, _⟩ => ⟨S_, .f32⟩
  | .hbm, ⟨21, _⟩ => ⟨S16x2051x256, .f32⟩
  | .hbm, ⟨22, _⟩ => ⟨S16x2051x256, .f32⟩
  | .hbm, ⟨23, _⟩ => ⟨S16x2048x256, .f32⟩
  | .hbm, ⟨24, _⟩ => ⟨S_, .i32⟩
  | .hbm, ⟨25, _⟩ => ⟨S_, .f32⟩
  | .hbm, ⟨26, _⟩ => ⟨S16x2051x256, .f32⟩
  | .hbm, ⟨27, _⟩ => ⟨S16x2051x256, .f32⟩
  | .hbm, ⟨28, _⟩ => ⟨S16x2048x256, .f32⟩
  | .hbm, ⟨29, _⟩ => ⟨S_, .i32⟩
  | .hbm, ⟨30, _⟩ => ⟨S_, .f32⟩
  | .hbm, ⟨31, _⟩ => ⟨S16x2051x256, .f32⟩
  | .hbm, ⟨32, _⟩ => ⟨S16x2051x256, .f32⟩
  | .hbm, ⟨33, _⟩ => ⟨S16x525056, .f32⟩
  | .hbm, ⟨34, _⟩ => ⟨S_, .i32⟩
  | .hbm, ⟨35, _⟩ => ⟨S_, .i32⟩
  | .hbm, ⟨36, _⟩ => ⟨S16x524288, .f32⟩
  | .hbm, ⟨37, _⟩ => ⟨S_, .f32⟩
  | .hbm, ⟨38, _⟩ => ⟨S16x524288, .f32⟩
  | .hbm, ⟨39, _⟩ => ⟨S16x524288, .f32⟩
  | .hbm, ⟨40, _⟩ => ⟨S1x524288, .f32⟩
  | .hbm, ⟨41, _⟩ => ⟨S_, .f32⟩
  | .hbm, ⟨42, _⟩ => ⟨S1x524288, .f32⟩
  | .hbm, ⟨43, _⟩ => ⟨S1x524288, .f32⟩
  | .hbm, ⟨44, _⟩ => ⟨S16x524288, .f32⟩
  | .hbm, ⟨45, _⟩ => ⟨S16x524288, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S16x2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_call1_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_call2_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_call3_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_c_4 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S16x2x2048x512_S16x1x2048x512_0_0_0_0 : S16x2x2048x512.Slices ![0, 0, 0, 0] S16x1x2048x512
  shapeCasts_S16x1x2048x512_S16x2048x512 : S16x1x2048x512.ShapeCasts S16x2048x512
  slices_S16x2x2048x512_S16x1x2048x512_0_1_0_0 : S16x2x2048x512.Slices ![0, 1, 0, 0] S16x1x2048x512
  concatenates_S16x2048x512_S16x2048x512_S16x2048x1024_d2 : Shape.Concatenates [S16x2048x512, S16x2048x512] S16x2048x1024 2
  shapeCasts_S16x2048x1024_S32768x1024 : S16x2048x1024.ShapeCasts S32768x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  shapeCasts_S32768x1024_S16x2048x1024 : S32768x1024.ShapeCasts S16x2048x1024
  bcast_S_S16x2051x256 : S_.BroadcastsInDim S16x2051x256 (![] : Fin 0 → Fin S16x2051x256.rank)
  slices_S16x2048x1024_S16x2048x256_0_0_0 : S16x2048x1024.Slices ![0, 0, 0] S16x2048x256
  pads_S16x2048x256_S16x2051x256_000_030_000 : S16x2048x256.Pads (![0, 0, 0] : Fin 3 → Nat) ![0, 3, 0] ![0, 0, 0] S16x2051x256
  h_S_ : 0 < S_.numel
  slices_S16x2048x1024_S16x2048x256_0_0_256 : S16x2048x1024.Slices ![0, 0, 256] S16x2048x256
  pads_S16x2048x256_S16x2051x256_000_120_000 : S16x2048x256.Pads (![0, 1, 0] : Fin 3 → Nat) ![0, 2, 0] ![0, 0, 0] S16x2051x256
  slices_S16x2048x1024_S16x2048x256_0_0_512 : S16x2048x1024.Slices ![0, 0, 512] S16x2048x256
  pads_S16x2048x256_S16x2051x256_000_210_000 : S16x2048x256.Pads (![0, 2, 0] : Fin 3 → Nat) ![0, 1, 0] ![0, 0, 0] S16x2051x256
  slices_S16x2048x1024_S16x2048x256_0_0_768 : S16x2048x1024.Slices ![0, 0, 768] S16x2048x256
  pads_S16x2048x256_S16x2051x256_000_300_000 : S16x2048x256.Pads (![0, 3, 0] : Fin 3 → Nat) ![0, 0, 0] ![0, 0, 0] S16x2051x256
  shapeCasts_S16x2051x256_S16x525056 : S16x2051x256.ShapeCasts S16x525056
  sliceFits_S16x525056_S16x524288 : S16x525056.Slices (fun _ => 0) S16x524288
  bcast_S_S16x524288 : S_.BroadcastsInDim S16x524288 (![] : Fin 0 → Fin S16x524288.rank)
  bcast_S524288_S1x524288_1 : S524288.BroadcastsInDim S1x524288 (![1] : Fin 1 → Fin S1x524288.rank)
  bcast_S_S1x524288 : S_.BroadcastsInDim S1x524288 (![] : Fin 0 → Fin S1x524288.rank)
  bcast_S1x524288_S16x524288_0_1 : S1x524288.BroadcastsInDim S16x524288 (![0, 1] : Fin 2 → Fin S16x524288.rank)
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S32768x1024.size a
  hwx0_2 : ∀ i : grid0.Coords, EltTy.bits .f32 = 32 ∨ (Rect.block (s := S32768x1024) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v5) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2x2048x512 : Shape := ⟨4, ![16, 2, 2048, 512]⟩
abbrev S1024x1024 : Shape := ⟨2, ![1024, 1024]⟩
abbrev S524288 : Shape := ⟨1, ![524288]⟩
abbrev S16x1x2048x512 : Shape := ⟨4, ![16, 1, 2048, 512]⟩
abbrev S16x2048x512 : Shape := ⟨3, ![16, 2048, 512]⟩
abbrev S16x2048x1024 : Shape := ⟨3, ![16, 2048, 1024]⟩
abbrev S2048 : Shape := ⟨1, ![2048]⟩
abbrev S2048x1 : Shape := ⟨2, ![2048, 1]⟩
abbrev S_ : Shape := ⟨0, ![]⟩
abbrev S1024 : Shape := ⟨1, ![1024]⟩
abbrev S1x1024 : Shape := ⟨2, ![1, 1024]⟩
abbrev S2048x1024 : Shape := ⟨2, ![2048, 1024]⟩
abbrev S16x525056 : Shape := ⟨2, ![16, 525056]⟩
abbrev S2048x1024x1 : Shape := ⟨3, ![2048, 1024, 1]⟩
abbrev S16x524288 : Shape := ⟨2, ![16, 524288]⟩
abbrev S1x524288 : Shape := ⟨2, ![1, 524288]⟩

abbrev nBuf : Space → Nat
  | .hbm => 40
  | .vmem => 0
  | .smem => 0
  | _ => 0

abbrev bufTy : (tb : Table) → Fin (tcTables nBuf tb) → BufTy
  | .hbm, ⟨0, _⟩ => ⟨S16x2x2048x512, .f32⟩
  | .hbm, ⟨1, _⟩ => ⟨S1024x1024, .f32⟩
  | .hbm, ⟨2, _⟩ => ⟨S524288, .f32⟩
  | .hbm, ⟨3, _⟩ => ⟨S16x1x2048x512, .f32⟩
  | .hbm, ⟨4, _⟩ => ⟨S16x2048x512, .f32⟩
  | .hbm, ⟨5, _⟩ => ⟨S16x1x2048x512, .f32⟩
  | .hbm, ⟨6, _⟩ => ⟨S16x2048x512, .f32⟩
  | .hbm, ⟨7, _⟩ => ⟨S16x2048x1024, .f32⟩
  | .hbm, ⟨8, _⟩ => ⟨S16x2048x1024, .f32⟩
  | .hbm, ⟨9, _⟩ => ⟨S2048, .i32⟩
  | .hbm, ⟨10, _⟩ => ⟨S2048x1, .i32⟩
  | .hbm, ⟨11, _⟩ => ⟨S_, .i32⟩
  | .hbm, ⟨12, _⟩ => ⟨S2048x1, .i32⟩
  | .hbm, ⟨13, _⟩ => ⟨S2048x1, .i32⟩
  | .hbm, ⟨14, _⟩ => ⟨S1024, .i32⟩
  | .hbm, ⟨15, _⟩ => ⟨S1x1024, .i32⟩
  | .hbm, ⟨16, _⟩ => ⟨S2048x1024, .i32⟩
  | .hbm, ⟨17, _⟩ => ⟨S2048x1024, .i32⟩
  | .hbm, ⟨18, _⟩ => ⟨S2048x1024, .i32⟩
  | .hbm, ⟨19, _⟩ => ⟨S_, .f32⟩
  | .hbm, ⟨20, _⟩ => ⟨S16x525056, .f32⟩
  | .hbm, ⟨21, _⟩ => ⟨S_, .i32⟩
  | .hbm, ⟨22, _⟩ => ⟨S2048x1024, .i32⟩
  | .hbm, ⟨23, _⟩ => ⟨S2048x1024, .i1⟩
  | .hbm, ⟨24, _⟩ => ⟨S_, .i32⟩
  | .hbm, ⟨25, _⟩ => ⟨S2048x1024, .i32⟩
  | .hbm, ⟨26, _⟩ => ⟨S2048x1024, .i32⟩
  | .hbm, ⟨27, _⟩ => ⟨S2048x1024, .i32⟩
  | .hbm, ⟨28, _⟩ => ⟨S2048x1024x1, .i32⟩
  | .hbm, ⟨29, _⟩ => ⟨S16x525056, .f32⟩
  | .hbm, ⟨30, _⟩ => ⟨S16x524288, .f32⟩
  | .hbm, ⟨31, _⟩ => ⟨S_, .f32⟩
  | .hbm, ⟨32, _⟩ => ⟨S16x524288, .f32⟩
  | .hbm, ⟨33, _⟩ => ⟨S16x524288, .f32⟩
  | .hbm, ⟨34, _⟩ => ⟨S1x524288, .f32⟩
  | .hbm, ⟨35, _⟩ => ⟨S_, .f32⟩
  | .hbm, ⟨36, _⟩ => ⟨S1x524288, .f32⟩
  | .hbm, ⟨37, _⟩ => ⟨S1x524288, .f32⟩
  | .hbm, ⟨38, _⟩ => ⟨S16x524288, .f32⟩
  | .hbm, ⟨39, _⟩ => ⟨S16x524288, .f32⟩
  | _, _ => ⟨S16x2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  slices_S16x2x2048x512_S16x1x2048x512_0_0_0_0 : S16x2x2048x512.Slices ![0, 0, 0, 0] S16x1x2048x512
  shapeCasts_S16x1x2048x512_S16x2048x512 : S16x1x2048x512.ShapeCasts S16x2048x512
  slices_S16x2x2048x512_S16x1x2048x512_0_1_0_0 : S16x2x2048x512.Slices ![0, 1, 0, 0] S16x1x2048x512
  concatenates_S16x2048x512_S16x2048x512_S16x2048x1024_d2 : Shape.Concatenates [S16x2048x512, S16x2048x512] S16x2048x1024 2
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1024_S1x1024_1 : S1024.BroadcastsInDim S1x1024 (![1] : Fin 1 → Fin S1x1024.rank)
  bcast_S2048x1_S2048x1024_0_1 : S2048x1.BroadcastsInDim S2048x1024 (![0, 1] : Fin 2 → Fin S2048x1024.rank)
  bcast_S1x1024_S2048x1024_0_1 : S1x1024.BroadcastsInDim S2048x1024 (![0, 1] : Fin 2 → Fin S2048x1024.rank)
  bcast_S_S16x525056 : S_.BroadcastsInDim S16x525056 (![] : Fin 0 → Fin S16x525056.rank)
  bcast_S_S2048x1024 : S_.BroadcastsInDim S2048x1024 (![] : Fin 0 → Fin S2048x1024.rank)
  bcast_S2048x1024_S2048x1024x1_0_1 : S2048x1024.BroadcastsInDim S2048x1024x1 (![0, 1] : Fin 2 → Fin S2048x1024x1.rank)
  slices_S16x525056_S16x524288_0_384 : S16x525056.Slices ![0, 384] S16x524288
  bcast_S_S16x524288 : S_.BroadcastsInDim S16x524288 (![] : Fin 0 → Fin S16x524288.rank)
  bcast_S524288_S1x524288_1 : S524288.BroadcastsInDim S1x524288 (![1] : Fin 1 → Fin S1x524288.rank)
  bcast_S_S1x524288 : S_.BroadcastsInDim S1x524288 (![] : Fin 0 → Fin S1x524288.rank)
  bcast_S1x524288_S16x524288_0_1 : S1x524288.BroadcastsInDim S16x524288 (![0, 1] : Fin 2 → Fin S16x524288.rank)
  dot_S16x2048x1024_S1024x1024_S16x2048x1024_2_0_01_1_n_n_wf : DotDims.WF S16x2048x1024 S1024x1024 S16x2048x1024 [2] [0] [0, 1] [1] [] []
  scatter_S16x525056_S2048x1024x1_S16x2048x1024_0_1_1_2_wf : ScatterDims.WF S16x525056 S2048x1024x1 S16x2048x1024 [0] [1] [1] 2

variable [Facts₀]

def dot_S16x2048x1024_S1024x1024_S16x2048x1024_2_0_01_1_n_n : DotDims S16x2048x1024 S1024x1024 S16x2048x1024 where
  lhsContracting := [2]
  rhsContracting := [0]
  lhsNonContracting := [0, 1]
  rhsNonContracting := [1]
  lhsBatch := []
  rhsBatch := []
  wf := dot_S16x2048x1024_S1024x1024_S16x2048x1024_2_0_01_1_n_n_wf
def scatter_S16x525056_S2048x1024x1_S16x2048x1024_0_1_1_2 : ScatterDims S16x525056 S2048x1024x1 S16x2048x1024 where
  updateWindowDims := [0]
  insertedWindowDims := [1]
  scatterDimsToOperandDims := [1]
  indexVectorDim := 2
  wf := scatter_S16x525056_S2048x1024x1_S16x2048x1024_0_1_1_2_wf

class Facts : Prop extends Facts₀ where

variable [Facts]
-- ==== Proof.FrameBits.lean ====
/-
  The frame of the program: it runs to the end, nothing faults, and its three argument arrays end as they began.

  @main is six host operations (the two half-spectra sliced, laid side by side and listed as the rows of a
  [32768, 1024] matrix), one pipelined region, and thirty-six host operations after it. The region's grid has 32 points;
  point t fetches rows 1024·t … 1024·t + 1023 of the row matrix (window 0), has the whole [1024, 1024] synthesis matrix
  (window 1, fetched once), and writes back rows 1024·t … of the product (window 2). The body loads both input blocks,
  loads the output block's old contents (which it does not use), and stores the product of the two input blocks over
  the whole output block. So after the body the output's staging buffer holds the one stored piece, a function of the
  two input blocks alone; the input buffers are left as they were. The host operations after the region write only
  buffers of their own, never an array of the pipeline and never an argument.
-/
import proofs.«108773_j25881472926130_1_alg».proof.Proof.Gen.Kernel.Launch
import proofs.«108773_j25881472926130_1_alg».proof.Proof.Gen.Kernel.Skeleton
import proofs.«108773_j25881472926130_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Synth

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: the launch contents after the six host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, stretch by stretch (the two operations of each padding function a stretch of their own). -/
abbrev tailOps : List (List (HloOp τ sig (Elt F))) := [hostOps1, hostOps1_1, hostOps1_2, hostOps1_3, hostOps1_4, hostOps1_5, hostOps1_6, hostOps1_7, hostOps1_8]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- @main is the host operations before the region, the region, and the host operations after it: it reduces to the
    region continued by the later operations, the buffers at their contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The operations after the region touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
/-- And each writes only its own result buffer, which is none of the pipeline's three arrays. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl | rfl | rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.unaryIndexed_writes, StableHlo.binaryIndexed_writes, Finset.mem_singleton] <;> exact StableHlo.devRef_ne_of_ne (by decide)
  · simp only [hostOps1_1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.unaryIndexed_writes, StableHlo.binaryIndexed_writes, Finset.mem_singleton] <;> exact StableHlo.devRef_ne_of_ne (by decide)
  · simp only [hostOps1_2, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.unaryIndexed_writes, StableHlo.binaryIndexed_writes, Finset.mem_singleton] <;> exact StableHlo.devRef_ne_of_ne (by decide)
  · simp only [hostOps1_3, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.unaryIndexed_writes, StableHlo.binaryIndexed_writes, Finset.mem_singleton] <;> exact StableHlo.devRef_ne_of_ne (by decide)
  · simp only [hostOps1_4, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.unaryIndexed_writes, StableHlo.binaryIndexed_writes, Finset.mem_singleton] <;> exact StableHlo.devRef_ne_of_ne (by decide)
  · simp only [hostOps1_5, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.unaryIndexed_writes, StableHlo.binaryIndexed_writes, Finset.mem_singleton] <;> exact StableHlo.devRef_ne_of_ne (by decide)
  · simp only [hostOps1_6, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.unaryIndexed_writes, StableHlo.binaryIndexed_writes, Finset.mem_singleton] <;> exact StableHlo.devRef_ne_of_ne (by decide)
  · simp only [hostOps1_7, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.unaryIndexed_writes, StableHlo.binaryIndexed_writes, Finset.mem_singleton] <;> exact StableHlo.devRef_ne_of_ne (by decide)
  · simp only [hostOps1_8, List.mem_cons, List.mem_nil_iff, or_false] at hop
    rcases hop with rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.unaryIndexed_writes, StableHlo.binaryIndexed_writes, Finset.mem_singleton] <;> exact StableHlo.devRef_ne_of_ne (by decide)

/-- No host operation before the region writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.unaryIndexed_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.unaryIndexed_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.unaryIndexed_writes, StableHlo.binaryIndexed_writes, Finset.mem_singleton]
    repeat' apply And.intro
    all_goals exact StableHlo.devRef_ne_of_ne (by decide)))

/-- No host operation after the region writes the first or the third argument either. -/
theorem tail_main_arg0 (W : Valuation τ sig (Elt F)) :
    StableHlo.after (tailOps (F := F)).flatten W (Proc.devRef .tc main_arg0) = W (Proc.devRef .tc main_arg0) :=
  StableHlo.after_of_forall_not_mem (b := Proc.devRef .tc main_arg0) _ _ (List.forall_iff_forall_mem.mp (by
    simp only [tailOps, hostOps1, hostOps1_1, hostOps1_2, hostOps1_3, hostOps1_4, hostOps1_5, hostOps1_6, hostOps1_7, hostOps1_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.unaryIndexed_writes, StableHlo.binaryIndexed_writes, Finset.mem_singleton]
    repeat' apply And.intro
    all_goals exact StableHlo.devRef_ne_of_ne (by decide)))
theorem tail_main_arg2 (W : Valuation τ sig (Elt F)) :
    StableHlo.after (tailOps (F := F)).flatten W (Proc.devRef .tc main_arg2) = W (Proc.devRef .tc main_arg2) :=
  StableHlo.after_of_forall_not_mem (b := Proc.devRef .tc main_arg2) _ _ (List.forall_iff_forall_mem.mp (by
    simp only [tailOps, hostOps1, hostOps1_1, hostOps1_2, hostOps1_3, hostOps1_4, hostOps1_5, hostOps1_6, hostOps1_7, hostOps1_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.unaryIndexed_writes, StableHlo.binaryIndexed_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The one rectangle the body accesses: the whole [1024, 1024] block. -/
abbrev r0_0 : Rect S1024x1024 := Rect.unit (s := S1024x1024) ![0, 0] S1024x1024.size inb_S1024x1024_S1024x1024_0_0

/-- The output's staging buffer after the body: its one store, the product of the two input blocks. -/
def out0_2 (x0 : Vec F S1024x1024 .f32) (x1 : Vec F S1024x1024 .f32) : Vec F S1024x1024 .f32 :=
  View.canon [⟨r0_0, k0_pay1 (View.ld x0 r0_0) (View.ld x1 r0_0)⟩]

/-- The one store covers the buffer. -/
theorem cover0_2 (p0 : Vec F S1024x1024 .f32) (y : S1024x1024.Idx) :
    ∃ pc ∈ ([⟨r0_0, p0⟩] : List (View.Piece (Elt F) S1024x1024 .f32)), y ∈ pc.1.set :=
  View.cover_of_tiled [⟨r0_0, p0⟩] S1024x1024.size (by rfl) y

set_option maxHeartbeats 1000000 in
/-- The body on whole staging memrefs, the inputs' at contents x0, x1 and the output's at anything: it runs to the
    continuation holding the inputs' as they were and the output's at the stored product. -/
theorem sound_kernel (c : Dev nD) (E : Set ℕ) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole)
    (x0 : Vec F S1024x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core c: the arrays as the region finds them; after the body at point t each
    input's buffer at its block and the output's at the product of the two input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has the pipeline's arrays at what the
    proof data compute and every other unscoped buffer as the operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME: the three argument arrays end as they began. The second is a window's array (an input: unchanged
    through the region, and no later operation writes it); the first and third are touched by no window and written by
    no host operation. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans
        ((tail_main_arg0 _).trans ((Pipeline.withArrays_of_ne spec0 c _ _ main_arg0 (by decide)).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans
        ((tail_main_arg2 _).trans ((Pipeline.withArrays_of_ne spec0 c _ _ main_arg2 (by decide)).trans (V_main_arg2 m c)))⟩)
    (run_main m ρ)

end Cert.Kernel.Synth

end
-- ==== Proof.FrameIdeal.lean ====
/-
  The frame of the program: it runs to the end, nothing faults, and its three argument arrays end as they began.

  @main is six host operations (the two half-spectra sliced, laid side by side and listed as the rows of a
  [32768, 1024] matrix), one pipelined region, and thirty-six host operations after it. The region's grid has 32 points;
  point t fetches rows 1024·t … 1024·t + 1023 of the row matrix (window 0), has the whole [1024, 1024] synthesis matrix
  (window 1, fetched once), and writes back rows 1024·t … of the product (window 2). The body loads both input blocks,
  loads the output block's old contents (which it does not use), and stores the product of the two input blocks over
  the whole output block. So after the body the output's staging buffer holds the one stored piece, a function of the
  two input blocks alone; the input buffers are left as they were. The host operations after the region write only
  buffers of their own, never an array of the pipeline and never an argument.
-/
import proofs.«108773_j25881472926130_1_alg».proof.Proof.Gen.KernelIdeal.Launch
import proofs.«108773_j25881472926130_1_alg».proof.Proof.Gen.KernelIdeal.Skeleton
import proofs.«108773_j25881472926130_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Synth

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: the launch contents after the six host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, stretch by stretch (the two operations of each padding function a stretch of their own). -/
abbrev tailOps : List (List (HloOp τ sig (Elt F))) := [hostOps1, hostOps1_1, hostOps1_2, hostOps1_3, hostOps1_4, hostOps1_5, hostOps1_6, hostOps1_7, hostOps1_8]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- @main is the host operations before the region, the region, and the host operations after it: it reduces to the
    region continued by the later operations, the buffers at their contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The operations after the region touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
/-- And each writes only its own result buffer, which is none of the pipeline's three arrays. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl | rfl | rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.unaryIndexed_writes, StableHlo.binaryIndexed_writes, Finset.mem_singleton] <;> exact StableHlo.devRef_ne_of_ne (by decide)
  · simp only [hostOps1_1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.unaryIndexed_writes, StableHlo.binaryIndexed_writes, Finset.mem_singleton] <;> exact StableHlo.devRef_ne_of_ne (by decide)
  · simp only [hostOps1_2, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.unaryIndexed_writes, StableHlo.binaryIndexed_writes, Finset.mem_singleton] <;> exact StableHlo.devRef_ne_of_ne (by decide)
  · simp only [hostOps1_3, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.unaryIndexed_writes, StableHlo.binaryIndexed_writes, Finset.mem_singleton] <;> exact StableHlo.devRef_ne_of_ne (by decide)
  · simp only [hostOps1_4, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.unaryIndexed_writes, StableHlo.binaryIndexed_writes, Finset.mem_singleton] <;> exact StableHlo.devRef_ne_of_ne (by decide)
  · simp only [hostOps1_5, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.unaryIndexed_writes, StableHlo.binaryIndexed_writes, Finset.mem_singleton] <;> exact StableHlo.devRef_ne_of_ne (by decide)
  · simp only [hostOps1_6, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.unaryIndexed_writes, StableHlo.binaryIndexed_writes, Finset.mem_singleton] <;> exact StableHlo.devRef_ne_of_ne (by decide)
  · simp only [hostOps1_7, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.unaryIndexed_writes, StableHlo.binaryIndexed_writes, Finset.mem_singleton] <;> exact StableHlo.devRef_ne_of_ne (by decide)
  · simp only [hostOps1_8, List.mem_cons, List.mem_nil_iff, or_false] at hop
    rcases hop with rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.unaryIndexed_writes, StableHlo.binaryIndexed_writes, Finset.mem_singleton] <;> exact StableHlo.devRef_ne_of_ne (by decide)

/-- No host operation before the region writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.unaryIndexed_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.unaryIndexed_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.unaryIndexed_writes, StableHlo.binaryIndexed_writes, Finset.mem_singleton]
    repeat' apply And.intro
    all_goals exact StableHlo.devRef_ne_of_ne (by decide)))

/-- No host operation after the region writes the first or the third argument either. -/
theorem tail_main_arg0 (W : Valuation τ sig (Elt F)) :
    StableHlo.after (tailOps (F := F)).flatten W (Proc.devRef .tc main_arg0) = W (Proc.devRef .tc main_arg0) :=
  StableHlo.after_of_forall_not_mem (b := Proc.devRef .tc main_arg0) _ _ (List.forall_iff_forall_mem.mp (by
    simp only [tailOps, hostOps1, hostOps1_1, hostOps1_2, hostOps1_3, hostOps1_4, hostOps1_5, hostOps1_6, hostOps1_7, hostOps1_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.unaryIndexed_writes, StableHlo.binaryIndexed_writes, Finset.mem_singleton]
    repeat' apply And.intro
    all_goals exact StableHlo.devRef_ne_of_ne (by decide)))
theorem tail_main_arg2 (W : Valuation τ sig (Elt F)) :
    StableHlo.after (tailOps (F := F)).flatten W (Proc.devRef .tc main_arg2) = W (Proc.devRef .tc main_arg2) :=
  StableHlo.after_of_forall_not_mem (b := Proc.devRef .tc main_arg2) _ _ (List.forall_iff_forall_mem.mp (by
    simp only [tailOps, hostOps1, hostOps1_1, hostOps1_2, hostOps1_3, hostOps1_4, hostOps1_5, hostOps1_6, hostOps1_7, hostOps1_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.unaryIndexed_writes, StableHlo.binaryIndexed_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The one rectangle the body accesses: the whole [1024, 1024] block. -/
abbrev r0_0 : Rect S1024x1024 := Rect.unit (s := S1024x1024) ![0, 0] S1024x1024.size inb_S1024x1024_S1024x1024_0_0

/-- The output's staging buffer after the body: its one store, the product of the two input blocks. -/
def out0_2 (x0 : Vec F S1024x1024 .f32) (x1 : Vec F S1024x1024 .f32) : Vec F S1024x1024 .f32 :=
  View.canon [⟨r0_0, k0_pay1 (View.ld x0 r0_0) (View.ld x1 r0_0)⟩]

/-- The one store covers the buffer. -/
theorem cover0_2 (p0 : Vec F S1024x1024 .f32) (y : S1024x1024.Idx) :
    ∃ pc ∈ ([⟨r0_0, p0⟩] : List (View.Piece (Elt F) S1024x1024 .f32)), y ∈ pc.1.set :=
  View.cover_of_tiled [⟨r0_0, p0⟩] S1024x1024.size (by rfl) y

set_option maxHeartbeats 1000000 in
/-- The body on whole staging memrefs, the inputs' at contents x0, x1 and the output's at anything: it runs to the
    continuation holding the inputs' as they were and the output's at the stored product. -/
theorem sound_kernel (c : Dev nD) (E : Set ℕ) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole)
    (x0 : Vec F S1024x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core c: the arrays as the region finds them; after the body at point t each
    input's buffer at its block and the output's at the product of the two input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has the pipeline's arrays at what the
    proof data compute and every other unscoped buffer as the operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME: the three argument arrays end as they began. The second is a window's array (an input: unchanged
    through the region, and no later operation writes it); the first and third are touched by no window and written by
    no host operation. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans
        ((tail_main_arg0 _).trans ((Pipeline.withArrays_of_ne spec0 c _ _ main_arg0 (by decide)).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans
        ((tail_main_arg2 _).trans ((Pipeline.withArrays_of_ne spec0 c _ _ main_arg2 (by decide)).trans (V_main_arg2 m c)))⟩)
    (run_main m ρ)

end Cert.KernelIdeal.Synth

end
-- ==== Proof.KernelTerms.lean ====
/-
  The kernel program's host computations around its one matrix product, as functions of arrays.

  Before the product: the two half-spectra x[:, 0] and x[:, 1] (each [16, 2048, 512]) are laid side by side along the
  last axis, giving each frame its 1024 channels, and the frames are listed as the 32768 rows of one matrix.
  After it: the product's rows are regrouped as frames [16, 2048, 1024]; each frame's four quarter-chunks
  (256 samples each) are shifted by 0, 1, 2, 3 hop-blocks along the time axis (zero-padded to 2051 blocks) and added;
  the [16, 2051, 256] sum is flattened to [16, 525056]; the middle 524288 samples are kept; and the result is doubled
  and divided by (scale + 1e-7), scale repeated over the 16 signals.
-/
import proofs.«108773_j25881472926130_1_alg».proof.Proof.Gen.KernelIdeal
import Idealize.ShloMosaic.PureOps.Ideal.Laws
import Idealize.ShloMosaic.Lib.ValueIdx

noncomputable section

namespace Cert.KernelIdeal.Synth

open Cert.KernelIdeal Cert.KernelIdeal.Gen Idealize.ShloMosaic

variable {F : FTy → Type} [FloatOps F]

/-- Each frame's 1024 channels: the real half then the imaginary half. -/
def channels (x : (⟨S16x2x2048x512, .f32⟩ : BufTy).Contents (Elt F)) : (⟨S16x2048x1024, .f32⟩ : BufTy).Contents (Elt F) :=
  concatenate S16x2048x1024 2 [⟨S16x2048x512, (shapeCast _ (extractStridedSlice S16x1x2048x512 ![0, 0, 0, 0] (x) slices_S16x2x2048x512_S16x1x2048x512_0_0_0_0) shapeCasts_S16x1x2048x512_S16x2048x512)⟩, ⟨S16x2048x512, (shapeCast _ (extractStridedSlice S16x1x2048x512 ![0, 1, 0, 0] (x) slices_S16x2x2048x512_S16x1x2048x512_0_1_0_0) shapeCasts_S16x1x2048x512_S16x2048x512)⟩] concatenates_S16x2048x512_S16x2048x512_S16x2048x1024_d2

/-- The frames as the rows of one [32768, 1024] matrix: the product's left operand. -/
def frameRows (x : (⟨S16x2x2048x512, .f32⟩ : BufTy).Contents (Elt F)) : (⟨S32768x1024, .f32⟩ : BufTy).Contents (Elt F) :=
  shapeCast _ (channels x) shapeCasts_S16x2048x1024_S32768x1024

/-- Quarter-chunk 0 of every frame, placed at its own hop-block (three zero blocks after). -/
def shifted0 (FR : (⟨S16x2048x1024, .f32⟩ : BufTy).Contents (Elt F)) : (⟨S16x2051x256, .f32⟩ : BufTy).Contents (Elt F) :=
  pad S16x2051x256 ![0, 0, 0] ![0, 3, 0] ![0, 0, 0] (extractStridedSlice S16x2048x256 ![0, 0, 0] FR slices_S16x2048x1024_S16x2048x256_0_0_0) (sitofp .f32 (constantI S_ 32 0#32)) pads_S16x2048x256_S16x2051x256_000_030_000 h_S_
/-- Quarter-chunk 1, one hop-block later. -/
def shifted1 (FR : (⟨S16x2048x1024, .f32⟩ : BufTy).Contents (Elt F)) : (⟨S16x2051x256, .f32⟩ : BufTy).Contents (Elt F) :=
  pad S16x2051x256 ![0, 1, 0] ![0, 2, 0] ![0, 0, 0] (extractStridedSlice S16x2048x256 ![0, 0, 256] FR slices_S16x2048x1024_S16x2048x256_0_0_256) (sitofp .f32 (constantI S_ 32 0#32)) pads_S16x2048x256_S16x2051x256_000_120_000 h_S_
/-- Quarter-chunk 2, two hop-blocks later. -/
def shifted2 (FR : (⟨S16x2048x1024, .f32⟩ : BufTy).Contents (Elt F)) : (⟨S16x2051x256, .f32⟩ : BufTy).Contents (Elt F) :=
  pad S16x2051x256 ![0, 2, 0] ![0, 1, 0] ![0, 0, 0] (extractStridedSlice S16x2048x256 ![0, 0, 512] FR slices_S16x2048x1024_S16x2048x256_0_0_512) (sitofp .f32 (constantI S_ 32 0#32)) pads_S16x2048x256_S16x2051x256_000_210_000 h_S_
/-- Quarter-chunk 3, three hop-blocks later. -/
def shifted3 (FR : (⟨S16x2048x1024, .f32⟩ : BufTy).Contents (Elt F)) : (⟨S16x2051x256, .f32⟩ : BufTy).Contents (Elt F) :=
  pad S16x2051x256 ![0, 3, 0] ![0, 0, 0] ![0, 0, 0] (extractStridedSlice S16x2048x256 ![0, 0, 768] FR slices_S16x2048x1024_S16x2048x256_0_0_768) (sitofp .f32 (constantI S_ 32 0#32)) pads_S16x2048x256_S16x2051x256_000_300_000 h_S_

/-- The overlap-added signal as the kernel program computes it: zeros plus the four shifted chunk arrays, added in
    order, flattened to [16, 525056]. -/
def yfull (FR : (⟨S16x2048x1024, .f32⟩ : BufTy).Contents (Elt F)) : (⟨S16x525056, .f32⟩ : BufTy).Contents (Elt F) :=
  shapeCast _ (addf (addf (addf (addf (broadcastInDim S16x2051x256 ![] bcast_S_S16x2051x256 (constant S_ .f32 0x00000000#32)) (shifted0 FR)) (shifted1 FR)) (shifted2 FR)) (shifted3 FR)) shapeCasts_S16x2051x256_S16x525056

/-- Doubling and the division by (scale + 1e-7), scale repeated over the 16 signals. -/
def finish (Y : (⟨S16x524288, .f32⟩ : BufTy).Contents (Elt F)) (scale : (⟨S524288, .f32⟩ : BufTy).Contents (Elt F)) :
    (⟨S16x524288, .f32⟩ : BufTy).Contents (Elt F) :=
  Host.divf (mulf (broadcastInDim S16x524288 ![] bcast_S_S16x524288 (constant S_ .f32 0x40000000#32)) Y) (broadcastInDim S16x524288 ![0, 1] bcast_S1x524288_S16x524288_0_1 (addf (broadcastInDim S1x524288 ![1] bcast_S524288_S1x524288_1 scale) (broadcastInDim S1x524288 ![] bcast_S_S1x524288 (constant S_ .f32 0x33D6BF95#32))))

/-- The product of the [32768, 1024] matrix of frame rows with the [1024, 1024] synthesis matrix, entry by entry, at the
    ideal values: row r of A against column h of W. -/
def prodRows (A : (⟨S32768x1024, .f32⟩ : BufTy).Contents (Elt Ideal)) (W : (⟨S1024x1024, .f32⟩ : BufTy).Contents (Elt Ideal)) :
    (⟨S32768x1024, .f32⟩ : BufTy).Contents (Elt Ideal) :=
  fun i => ∑ c : Fin 1024, A (ValueIdx.ix2 (i 0) c) * W (ValueIdx.ix2 c (i 1))

end Cert.KernelIdeal.Synth

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.KernelProduct.lean ====
/-
  The kernel's block product and the regrouped frames, entry by entry.
-/
import proofs.«108773_j25881472926130_1_alg».proof.Proof.KernelTerms
import proofs.«108773_j25881472926130_1_alg».proof.Proof.Gen.KernelIdeal.Skeleton
import proofs.«108773_j25881472926130_1_alg».proof.Proof.LibDenseLayer

noncomputable section

open scoped BigOperators

namespace Cert.KernelIdeal.Synth

open Cert.KernelIdeal Cert.KernelIdeal.Gen Idealize.ShloMosaic Idealize.ShloMosaic.ValueIdx

/-- One grid point's stored block: entry (r, h) is row r of the left block against column h of the right one. -/
theorem pay_apply (x0 x3 : Vec Ideal S1024x1024 .f32) (r h : Fin 1024) :
    k0_pay1 (F := Ideal) x0 x3 (ix2 r h) = ∑ c : Fin 1024, x0 (ix2 r c) * x3 (ix2 c h) := by
  unfold k0_pay1
  -- the product into the zero accumulator reads the sum over the contracted coordinate
  refine (DenseLayer.matmul_rows_apply dot_S1024x1024_S1024x1024_S1024x1024_1_0_0_1_n_n_wf none _ _ r h).trans ?_
  refine Finset.sum_congr rfl fun c _ => ?_
  -- at the ideal values the change of format keeps every entry, and the cast to the same shape is the identity
  rw [truncf_apply, truncf_apply, shapeCast_self]

/-- Row 2048·b + t of the matrix of frame rows is frame (b, t): the two have the same row-major position
    (2048·b + t)·1024 + c. -/
theorem rows_apply (XC : (⟨S16x2048x1024, .f32⟩ : BufTy).Contents (Elt Ideal)) (b : Fin 16) (t : Fin 2048) (c : Fin 1024)
    (row : Fin 32768) (hrow : row.val = b.val * 2048 + t.val) :
    shapeCast S32768x1024 XC shapeCasts_S16x2048x1024_S32768x1024 (ix2 row c) = XC (ix3 b t c) := by
  refine shapeCast_apply XC shapeCasts_S16x2048x1024_S32768x1024 (ix2 row c) (ix3 b t c) ?_
  rewrite [Shape.rowMajor_val_three, Shape.rowMajor_val_two]
  show (b.val * 2048 + t.val) * 1024 + c.val = row.val * 1024 + c.val
  rw [hrow]

/-- Frame (b, t) of the regrouped matrix is its row 2048·b + t, column by column. -/
theorem frames_of_rows (P : (⟨S32768x1024, .f32⟩ : BufTy).Contents (Elt Ideal)) (b : Fin 16) (t : Fin 2048) (k : Fin 1024)
    (row : Fin 32768) (hrow : row.val = b.val * 2048 + t.val) :
    shapeCast S16x2048x1024 P shapeCasts_S32768x1024_S16x2048x1024 (ix3 b t k) = P (ix2 row k) := by
  refine shapeCast_apply P shapeCasts_S32768x1024_S16x2048x1024 (ix3 b t k) (ix2 row k) ?_
  rewrite [Shape.rowMajor_val_three, Shape.rowMajor_val_two]
  show row.val * 1024 + k.val = (b.val * 2048 + t.val) * 1024 + k.val
  rw [hrow]

/-- The whole product regrouped as frames: entry (b, t, k) is frame (b, t)'s channels against column k. -/
theorem frames_apply (XC : (⟨S16x2048x1024, .f32⟩ : BufTy).Contents (Elt Ideal)) (W : (⟨S1024x1024, .f32⟩ : BufTy).Contents (Elt Ideal))
    (b : Fin 16) (t : Fin 2048) (k : Fin 1024) :
    shapeCast S16x2048x1024 (prodRows (shapeCast S32768x1024 XC shapeCasts_S16x2048x1024_S32768x1024) W) shapeCasts_S32768x1024_S16x2048x1024 (ix3 b t k)
      = ∑ c : Fin 1024, XC (ix3 b t c) * W (ix2 c k) := by
  -- frame (b, t) is row 2048·b + t, which is below 32768 = 16·2048
  have hlt : b.val * 2048 + t.val < 32768 := by
    have hb : b.val < 16 := b.isLt
    have ht : t.val < 2048 := t.isLt
    omega
  refine (frames_of_rows _ b t k ⟨b.val * 2048 + t.val, hlt⟩ rfl).trans ?_
  -- the product's entry at (row, k) is the sum over c of the row's entry c times W(c, k)
  show ∑ c : Fin 1024, shapeCast S32768x1024 XC shapeCasts_S16x2048x1024_S32768x1024 (ix2 ⟨b.val * 2048 + t.val, hlt⟩ c) * W (ix2 c k) = _
  refine Finset.sum_congr rfl fun c _ => ?_
  rw [rows_apply XC b t c ⟨b.val * 2048 + t.val, hlt⟩ rfl]

end Cert.KernelIdeal.Synth

end
-- ==== Proof.KernelArray.lean ====
/-
  The product array after the region, and the row matrix before it.

  The region's grid has 32 points. Point t stages rows 1024·t … 1024·t + 1023 of the [32768, 1024] row matrix and the
  whole [1024, 1024] synthesis matrix, and writes back the product of the two blocks as rows 1024·t … 1024·t + 1023 of
  the product array. Entry (p, q) of that block is Σ_l (row block)(p, l) · W(l, q), which is entry (1024·t + p, q) of the
  whole product of the row matrix with W. Every row r of the array lies in the block of point r / 1024, so after the
  region the array is the whole product. The row matrix itself is what the six host operations before the region
  leave: the frames' channels of the first argument, listed as rows.
-/
import proofs.«108773_j25881472926130_1_alg».proof.Proof.FrameIdeal
import proofs.«108773_j25881472926130_1_alg».proof.Proof.KernelTerms
import proofs.«108773_j25881472926130_1_alg».proof.Proof.KernelProduct
import Idealize.ShloMosaic.Lib.Pipeline.Value
import Idealize.ShloMosaic.Lib.StableHlo.Run

set_option maxRecDepth 16384

noncomputable section

open scoped BigOperators

namespace Cert.KernelIdeal.Synth

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The product array after the region -/

theorem hz : (![0, 0] : Fin 2 → Nat) = fun _ => 0 := funext fun a => by fin_cases a <;> rfl

/-- The index maps over the grid: at point t the row matrix's block and the product's block are block row t, the
    synthesis matrix's block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product: rows 1024·t … 1024·t + 1023 of the row matrix against
    the synthesis matrix. -/
theorem flushed_eq (c : Dev nD) (t : Fin cfg0.N) :
    (dats m 0 c).flushed 2 t = ((cfg0.win 2).blk t).view.read (Elt Ideal) (prodRows (V m c main_v5) (V m c main_arg1)) := by
  show (cfg0.win 2).cut (grid0.coords t) ((dats m 0 c).after 2 t) = _
  rw [after0_2]
  unfold out0_2
  rw [View.canon_unit_zero hz]
  simp only [View.ld_unit_zero (S := S1024x1024) hz]
  obtain ⟨e0, e1, e2, e3, e4, e5⟩ := idx_facts t
  funext j
  obtain ⟨p, q, rfl⟩ : ∃ (p : Fin 1024) (q : Fin 1024), j = ix2 p q := ⟨j 0, j 1, eq_ix2 j⟩
  refine (pay_apply (iblk m c 0 t) (iblk m c 1 t) p q).trans ?_
  show _ = prodRows (V m c main_v5) (V m c main_arg1) (((cfg0.win 2).blk t).view.emb (ix2 p q))
  unfold prodRows
  refine Finset.sum_congr rfl fun l _ => ?_
  have h0 : iblk m c 0 t (ix2 p l) = V m c main_v5 (ix2 ((((cfg0.win 2).blk t).view.emb (ix2 p q)) 0) l) := by
    show V m c main_v5 (((cfg0.win 0).blk t).view.emb (ix2 p l)) = _
    congr 1
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 1024 + 1 * l.val = l.val; omega
  have h1 : iblk m c 1 t (ix2 l q) = V m c main_arg1 (ix2 l ((((cfg0.win 2).blk t).view.emb (ix2 p q)) 1)) := by
    show V m c main_arg1 (((cfg0.win 1).blk t).view.emb (ix2 l q)) = _
    congr 1
    funext a; apply Fin.ext
    match a with
    | ⟨0, _⟩ => show win0_1.index t (0 : Fin 2) * 1024 + 1 * l.val = l.val; omega
    | ⟨1, _⟩ => show win0_1.index t (1 : Fin 2) * 1024 + 1 * q.val = win0_2.index t (1 : Fin 2) * 1024 + 1 * q.val; omega
  rw [h0, h1]

/-- An index of the product array is in point t's block iff each coordinate is in the block's range on its axis. -/
theorem mem_blk (t : Fin cfg0.N) (i : S32768x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v6).slice (win0_2.rect t)).set ↔ _
  rw [View.set_slice_whole, Rect.mem_set_unit]
  exact Iff.rfl

/-- Every row of the product lies in the block of point (row / 1024). -/
theorem cover (i : S32768x1024.Idx) : ∃ t : Fin cfg0.N, (cfg0.win 2).flush t = true ∧ i ∈ ((cfg0.win 2).blk t).view.set := by
  have hi0 : (i 0).val < 32768 := (i 0).isLt
  have hi1 : (i 1).val < 1024 := (i 1).isLt
  have hN : cfg0.N = 32 := N_0
  refine ⟨⟨(i 0).val / 1024, by rw [hN]; omega⟩, flush0_2 _, ?_⟩
  rw [mem_blk]
  obtain ⟨e0, e1, e2, e3, e4, e5⟩ := idx_facts ⟨(i 0).val / 1024, by rw [hN]; omega⟩
  intro a
  match a with
  | ⟨0, _⟩ => show win0_2.index _ (0 : Fin 2) * 1024 ≤ (i 0).val ∧ (i 0).val < win0_2.index _ (0 : Fin 2) * 1024 + 1024; rw [e4]; show (i 0).val / 1024 * 1024 ≤ (i 0).val ∧ (i 0).val < (i 0).val / 1024 * 1024 + 1024; omega
  | ⟨1, _⟩ => show win0_2.index _ (1 : Fin 2) * 1024 ≤ (i 1).val ∧ (i 1).val < win0_2.index _ (1 : Fin 2) * 1024 + 1024; rw [e5]; omega

/-- THE PRODUCT ARRAY after the region: the row matrix against the synthesis matrix, as the region found them. -/
theorem final (c : Dev nD) : (dats m 0 c).arrAt 2 cfg0.N = prodRows (V m c main_v5) (V m c main_arg1) :=
  (dats m 0 c).arrAt_eq_of_cover 2 (prodRows (V m c main_v5) (V m c main_arg1)) (fun t _ => flushed_eq m c t) cover

/-- The row matrix as the region finds it: the frames' channels of the first argument, listed as rows. -/
theorem V_rows (c : Dev nD) : (V m c main_v5 : (⟨S32768x1024, .f32⟩ : BufTy).Contents (Elt Ideal)) = frameRows (F := Ideal) (m ((c : Thread nD τ).loc main_arg0)) := by
  dsimp only [V, V0]
  simp only [hostOps0, List.flatten_cons, List.flatten_nil, List.append_nil]
  after_results
  rfl

end Cert.KernelIdeal.Synth

end
-- ==== Proof.KernelTail.lean ====
/-
  The host operations after the region, read in two stretches, over any contents of the buffers.

  Up to the slice: the product array is regrouped as frames, zeros and the four shifted quarter-chunk arrays are added
  in order and flattened, and the two scalar words 0 and 384 are written. From the slice on: a block of 524288 samples
  per signal is taken starting at those two words (clamped into the array, which changes nothing here: 0 and 384 are not
  negative and 384 + 524288 ≤ 525056), doubled, and divided by the rescale vector plus 1e-7 repeated over the signals.
-/
import proofs.«108773_j25881472926130_1_alg».proof.Proof.FrameIdeal
import proofs.«108773_j25881472926130_1_alg».proof.Proof.KernelTerms
import Idealize.ShloMosaic.Lib.StableHlo.Run
import Idealize.ShloMosaic.Lib.DynamicIndex

noncomputable section

namespace Cert.KernelIdeal.Synth

open Cert.KernelIdeal Cert.KernelIdeal.Gen
open Idealize.ShloMosaic Idealize.ShloMosaic.TcCoe
open Idealize.SL Idealize.SL.Sem

variable {F : FTy → Type} [FloatOps F]

variable (W : Valuation τ sig (Elt F))

/-- The middle 524288 samples of the 525056: the block that starts at sample 384. -/
theorem slices_crop : S16x525056.Slices ![0, 384] S16x524288 := by decide

/-- The last stretch of host operations up to the two slice-start constants, -/
abbrev tailA : List (HloOp τ sig (Elt F)) :=
  [ StableHlo.binary main_v17 main_v19 main_v20 (addf : (⟨S16x2051x256, .f32⟩ : BufTy).Contents (Elt F) → (⟨S16x2051x256, .f32⟩ : BufTy).Contents (Elt F) → (⟨S16x2051x256, .f32⟩ : BufTy).Contents (Elt F)),
    StableHlo.reshape main_v20 main_v21 rfl shapeCasts_S16x2051x256_S16x525056,
    StableHlo.nullary main_c_3 (constantI S_ 32 0#32),
    StableHlo.nullary main_c_4 (constantI S_ 32 384#32) ]
/-- and from the slice on. -/
abbrev tailB : List (HloOp τ sig (Elt F)) :=
  [ StableHlo.unaryIndexed main_v21 ![main_c_3, main_c_4] ⟨S_, .i32⟩ main_v22 ((fun x i => Host.dynamicSlice S16x524288 x (fun k => (i k (Shape.Idx.first h_S_)).toInt) sliceFits_S16x525056_S16x524288) : (⟨S16x525056, .f32⟩ : BufTy).Contents (Elt F) → (Fin 2 → (⟨S_, .i32⟩ : BufTy).Contents (Elt F)) → (⟨S16x524288, .f32⟩ : BufTy).Contents (Elt F)),
    StableHlo.nullary main_cst_5 (constant S_ .f32 0x40000000#32),
    StableHlo.unary main_cst_5 main_v23 (broadcastInDim S16x524288 ![] bcast_S_S16x524288 : (⟨S_, .f32⟩ : BufTy).Contents (Elt F) → (⟨S16x524288, .f32⟩ : BufTy).Contents (Elt F)),
    StableHlo.binary main_v23 main_v22 main_v24 (mulf : (⟨S16x524288, .f32⟩ : BufTy).Contents (Elt F) → (⟨S16x524288, .f32⟩ : BufTy).Contents (Elt F) → (⟨S16x524288, .f32⟩ : BufTy).Contents (Elt F)),
    StableHlo.unary main_arg2 main_v25 (broadcastInDim S1x524288 ![1] bcast_S524288_S1x524288_1 : (⟨S524288, .f32⟩ : BufTy).Contents (Elt F) → (⟨S1x524288, .f32⟩ : BufTy).Contents (Elt F)),
    StableHlo.nullary main_cst_6 (constant S_ .f32 0x33D6BF95#32),
    StableHlo.unary main_cst_6 main_v26 (broadcastInDim S1x524288 ![] bcast_S_S1x524288 : (⟨S_, .f32⟩ : BufTy).Contents (Elt F) → (⟨S1x524288, .f32⟩ : BufTy).Contents (Elt F)),
    StableHlo.binary main_v25 main_v26 main_v27 (addf : (⟨S1x524288, .f32⟩ : BufTy).Contents (Elt F) → (⟨S1x524288, .f32⟩ : BufTy).Contents (Elt F) → (⟨S1x524288, .f32⟩ : BufTy).Contents (Elt F)),
    StableHlo.unary main_v27 main_v28 (broadcastInDim S16x524288 ![0, 1] bcast_S1x524288_S16x524288_0_1 : (⟨S1x524288, .f32⟩ : BufTy).Contents (Elt F) → (⟨S16x524288, .f32⟩ : BufTy).Contents (Elt F)),
    StableHlo.binary main_v24 main_v28 main_v29 (Host.divf : (⟨S16x524288, .f32⟩ : BufTy).Contents (Elt F) → (⟨S16x524288, .f32⟩ : BufTy).Contents (Elt F) → (⟨S16x524288, .f32⟩ : BufTy).Contents (Elt F)) ]

/-- Everything after the region up to the slice. -/
abbrev tailPre : List (HloOp τ sig (Elt F)) :=
  List.flatten [hostOps1, hostOps1_1, hostOps1_2, hostOps1_3, hostOps1_4, hostOps1_5, hostOps1_6, hostOps1_7, tailA]

theorem tail_flatten : (tailOps (F := F)).flatten = tailPre ++ tailB := rfl

/-! ## Up to the slice -/

set_option maxHeartbeats 4000000 in
/-- The flattened overlap-added signal, from the product array as the region left it. -/
theorem pre_v21 : StableHlo.after tailPre W (Proc.devRef .tc main_v21)
    = yfull (F := F) (shapeCast S16x2048x1024 (W (Proc.devRef .tc main_v6)) shapeCasts_S32768x1024_S16x2048x1024) := by
  simp only [tailPre, tailA, hostOps1, hostOps1_1, hostOps1_2, hostOps1_3, hostOps1_4, hostOps1_5, hostOps1_6, hostOps1_7, List.flatten_cons, List.flatten_nil, List.append_nil, List.cons_append, List.nil_append]
  after_results_simp
  rfl

set_option maxHeartbeats 4000000 in
theorem pre_c3 : StableHlo.after tailPre W (Proc.devRef .tc main_c_3) = constantI S_ 32 0#32 := by
  simp only [tailPre, tailA, hostOps1, hostOps1_1, hostOps1_2, hostOps1_3, hostOps1_4, hostOps1_5, hostOps1_6, hostOps1_7, List.flatten_cons, List.flatten_nil, List.append_nil, List.cons_append, List.nil_append]
  after_results_simp

set_option maxHeartbeats 4000000 in
theorem pre_c4 : StableHlo.after tailPre W (Proc.devRef .tc main_c_4) = constantI S_ 32 384#32 := by
  simp only [tailPre, tailA, hostOps1, hostOps1_1, hostOps1_2, hostOps1_3, hostOps1_4, hostOps1_5, hostOps1_6, hostOps1_7, List.flatten_cons, List.flatten_nil, List.append_nil, List.cons_append, List.nil_append]
  after_results_simp

set_option maxHeartbeats 4000000 in
theorem pre_arg2 : StableHlo.after tailPre W (Proc.devRef .tc main_arg2) = W (Proc.devRef .tc main_arg2) := by
  simp only [tailPre, tailA, hostOps1, hostOps1_1, hostOps1_2, hostOps1_3, hostOps1_4, hostOps1_5, hostOps1_6, hostOps1_7, List.flatten_cons, List.flatten_nil, List.append_nil, List.cons_append, List.nil_append]
  after_results_simp

/-! ## From the slice on -/

set_option maxHeartbeats 4000000 in
/-- With the two start words at 0 and 384 the slice is the fixed block at (0, 384): the starts are not negative and
    leave the block inside the array, so nothing is clamped. The rest is the doubling and the division. -/
theorem post_v29 (hc3 : W (Proc.devRef .tc main_c_3) = constantI S_ 32 0#32) (hc4 : W (Proc.devRef .tc main_c_4) = constantI S_ 32 384#32) :
    StableHlo.after tailB W (Proc.devRef .tc main_v29)
      = finish (F := F) (extractStridedSlice S16x524288 ![0, 384] (W (Proc.devRef .tc main_v21)) slices_crop) (W (Proc.devRef .tc main_arg2)) := by
  after_results_simp
  rw [Host.dynamicSlice_eq_extractStridedSlice (off := ![0, 384]) (hoff := slices_crop)]
  · rfl
  · intro a
    fin_cases a
    · show BitVec.toInt (W (Proc.devRef .tc main_c_3) (Shape.Idx.first h_S_)) = ((0 : ℕ) : ℤ)
      rw [hc3]
      rfl
    · show BitVec.toInt (W (Proc.devRef .tc main_c_4) (Shape.Idx.first h_S_)) = ((384 : ℕ) : ℤ)
      rw [hc4]
      rfl

end Cert.KernelIdeal.Synth

end
-- ==== Proof.KernelValue.lean ====
/-
  The kernel program's run, read: its result buffer ends holding one function of the three arguments.

  After the region the product array holds the frame rows against the synthesis matrix. The host operations that
  follow regroup it as frames, add the four shifted quarter-chunk arrays, flatten, keep the middle 524288 samples,
  double, and divide by the rescale vector plus 1e-7; nothing they read has changed since launch except through those
  steps, and they write no argument.
-/
import proofs.«108773_j25881472926130_1_alg».proof.Proof.KernelArray
import proofs.«108773_j25881472926130_1_alg».proof.Proof.KernelTail

set_option maxRecDepth 16384

noncomputable section

namespace Cert.KernelIdeal.Synth

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- The kernel program's result as one function of its three arguments: the frame rows against the synthesis matrix,
    regrouped as frames, overlap-added, cropped to the middle, doubled and divided by the rescale vector plus 1e-7. -/
def result (x0 : (⟨S16x2x2048x512, .f32⟩ : BufTy).Contents (Elt Ideal)) (x1 : (⟨S1024x1024, .f32⟩ : BufTy).Contents (Elt Ideal))
    (x2 : (⟨S524288, .f32⟩ : BufTy).Contents (Elt Ideal)) : (⟨S16x524288, .f32⟩ : BufTy).Contents (Elt Ideal) :=
  finish (F := Ideal) (extractStridedSlice S16x524288 ![0, 384] (yfull (F := Ideal) (shapeCast S16x2048x1024 (prodRows (frameRows (F := Ideal) x0) x1) shapeCasts_S32768x1024_S16x2048x1024)) slices_crop) x2

/-- What the host operations after the region leave in the result buffer. -/
theorem tail_result (c : Dev nD) :
    Pipeline.afterTail₀ cfgs (dats m) 0 (V0 m) tailOps c main_v29
      = result (m ((c : Thread nD τ).loc main_arg0)) (m ((c : Thread nD τ).loc main_arg1)) (m ((c : Thread nD τ).loc main_arg2)) := by
  have hW : Pipeline.withArrays (cfgs 0).spec c (V0 m c) (fun w => (dats m 0 c).arrAt w (cfgs 0).N) (Proc.devRef .tc main_v6)
      = prodRows (frameRows (F := Ideal) (m ((c : Thread nD τ).loc main_arg0))) (m ((c : Thread nD τ).loc main_arg1)) :=
    (Pipeline.withArrays_arr spec0 launch0.win.arr_inj c _ _ 2).trans ((final m c).trans (by rw [V_rows, V_main_arg1]))
  have hS : Pipeline.withArrays (cfgs 0).spec c (V0 m c) (fun w => (dats m 0 c).arrAt w (cfgs 0).N) (Proc.devRef .tc main_arg2)
      = m ((c : Thread nD τ).loc main_arg2) :=
    (Pipeline.withArrays_of_ne spec0 c _ _ main_arg2 (by decide)).trans (V_main_arg2 m c)
  unfold Pipeline.afterTail₀
  rw [tail_flatten, StableHlo.after_append, post_v29 _ (pre_c3 _) (pre_c4 _), pre_v21, pre_arg2, hW, hS]
  rfl

/-- THE RUN, READ: every weakly fair execution terminates with the result buffer at the function of the arguments and
    the arguments unchanged. -/
theorem run : θ_run defs (onTc (τ := τ) (main (F := Ideal))) ⟨m, fun _ => 0, ρ⟩ (fun r => ∀ c : Dev nD,
      r.2.mem ((c.tc : Thread nD τ).loc main_v29) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v29 (Pipeline.mem_restRefs_of main_v29 (by decide) (by decide))).trans (tail_result m c),
     ((h c).2 main_arg0 (Pipeline.mem_restRefs_of main_arg0 (by decide) (by decide))).trans
        ((tail_main_arg0 _).trans ((Pipeline.withArrays_of_ne spec0 c _ _ main_arg0 (by decide)).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans
        ((tail_main_arg2 _).trans ((Pipeline.withArrays_of_ne spec0 c _ _ main_arg2 (by decide)).trans (V_main_arg2 m c)))⟩)
    (run_main m ρ)

end Cert.KernelIdeal.Synth

end
-- ==== Proof.Spec.lean ====
/-
  Overlap-add of frames, as one function.

  A frames array D has shape [16, 2048, 1024]: for each of 16 signals, 2048 frames of 1024 synthesis samples. Frame t
  is laid into the output signal starting at sample 256·t (the hop is a quarter of the frame length), and overlapping
  samples are added. Writing an output position as p = 256·j + h with 0 ≤ h < 256, exactly the frames j, j−1, j−2, j−3
  (those that exist) reach p: frame j−m contributes its sample 256·m + h. So
      ola D (b, p) = Σ_{m < 4} [m ≤ j] · D(b, j − m, 256·m + h),   j = p / 256, h = p % 256,
  where D is read as zero outside its index range (which also drops the frames j − m ≥ 2048 near the end).
-/
import Idealize.ShloMosaic.PureOps.Ideal.Laws
import Idealize.ShloMosaic.Lib.ValueIdx

noncomputable section

open scoped BigOperators

namespace Cert.Ola

open Idealize.ShloMosaic Idealize.ShloMosaic.ValueIdx

/-- The frames array read at natural-number coordinates, zero outside [16, 2048, 1024]. -/
def ext (D : (⟨3, ![16, 2048, 1024]⟩ : Shape).Idx → EReal) (b t k : ℕ) : EReal :=
  if h : b < 16 ∧ t < 2048 ∧ k < 1024 then D (ix3 ⟨b, h.1⟩ ⟨t, h.2.1⟩ ⟨k, h.2.2⟩) else 0

/-- What frame j − m contributes to hop-block j at offset h: its sample 256·m + h, when that frame exists. -/
def chunk (D : (⟨3, ![16, 2048, 1024]⟩ : Shape).Idx → EReal) (b j h m : ℕ) : EReal :=
  if m ≤ j then ext D b (j - m) (256 * m + h) else 0

/-- The overlap-added signal [16, 525056]: at (b, p) the four chunks that reach position p, added. -/
def ola (D : (⟨3, ![16, 2048, 1024]⟩ : Shape).Idx → EReal) : (⟨2, ![16, 525056]⟩ : Shape).Idx → EReal := fun i =>
  ∑ m : Fin 4, chunk D (i 0).val ((i 1).val / 256) ((i 1).val % 256) m.val

end Cert.Ola

end
-- ==== Proof.KernelOla.lean ====
/-
  The kernel program's shift-and-add chain is the overlap-add.
-/
import proofs.«108773_j25881472926130_1_alg».proof.Proof.KernelTerms
import proofs.«108773_j25881472926130_1_alg».proof.Proof.Spec
import Idealize.ShloMosaic.Lib.Pipeline.Value
import Idealize.ShloMosaic.Lib.KernelVsHost

noncomputable section

namespace Cert.KernelIdeal.Synth

open Cert.KernelIdeal Cert.KernelIdeal.Gen Idealize.ShloMosaic Idealize.ShloMosaic.ValueIdx

/-- The padding value, the integer word zero converted, is the real zero. -/
theorem padValue_apply (i : S_.Idx) : (sitofp (F := Ideal) .f32 (constantI S_ 32 0#32)) i = 0 := by
  show (((0#32 : BitVec 32).toInt : ℝ) : EReal) = 0
  simp

/-- A quarter-chunk array read at hop-block j, offset h: chunk m of frame j − m when that frame exists, else zero. -/
theorem shifted_read (m : ℕ) (FR : (⟨S16x2048x1024, .f32⟩ : BufTy).Contents (Elt Ideal))
    (hs : S16x2048x1024.Slices ![0, 0, 256 * m] S16x2048x256)
    (hp : S16x2048x256.Pads ![0, m, 0] ![0, 3 - m, 0] ![0, 0, 0] S16x2051x256)
    (b : Fin 16) (j : Fin 2051) (h : Fin 256) (hm : m ≤ 3) :
    pad S16x2051x256 ![0, m, 0] ![0, 3 - m, 0] ![0, 0, 0] (extractStridedSlice S16x2048x256 ![0, 0, 256 * m] FR hs)
        (sitofp (F := Ideal) .f32 (constantI S_ 32 0#32)) hp h_S_ (ix3 b j h)
      = Cert.Ola.chunk FR b.val j.val h.val m := by
  have hb := b.isLt
  have hj := j.isLt
  have hh := h.isLt
  by_cases hin : m ≤ j.val ∧ j.val - m < 2048
  · have hk : 256 * m + h.val < 1024 := by omega
    refine (pad_apply_of_inside _ _ _ _ _ hp h_S_ (ix3 b j h) (ix3 b (⟨j.val - m, hin.2⟩ : Fin 2048) h) (fun a => match a with
      | ⟨0, _⟩ => by show b.val = 0 + b.val * (0 + 1); omega
      | ⟨1, _⟩ => by show j.val = m + (j.val - m) * (0 + 1); omega
      | ⟨2, _⟩ => by show h.val = 0 + h.val * (0 + 1); omega)).trans ?_
    refine (extractStridedSlice_apply _ FR hs (ix3 b (⟨j.val - m, hin.2⟩ : Fin 2048) h)
      (ix3 b (⟨j.val - m, hin.2⟩ : Fin 2048) (⟨256 * m + h.val, hk⟩ : Fin 1024)) (fun a => match a with
      | ⟨0, _⟩ => by show b.val = 0 + b.val; omega
      | ⟨1, _⟩ => by show j.val - m = 0 + (j.val - m); omega
      | ⟨2, _⟩ => by show 256 * m + h.val = 256 * m + h.val; rfl)).trans ?_
    unfold Cert.Ola.chunk Cert.Ola.ext
    rw [if_pos hin.1, dif_pos ⟨hb, hin.2, hk⟩]
  · refine (pad_apply_of_not_inside _ _ _ _ _ hp h_S_ (ix3 b j h) (1 : Fin 3) (fun hc => hin ⟨hc.1, ?_⟩)).trans ?_
    · have h3 := hc.2.2
      change (j.val - m) / (0 + 1) < 2048 at h3
      omega
    · rw [padValue_apply]
      unfold Cert.Ola.chunk Cert.Ola.ext
      by_cases h1 : m ≤ j.val
      · rw [if_pos h1, dif_neg (fun hc => hin ⟨h1, hc.2.1⟩)]
      · rw [if_neg h1]

/-- Zeros plus the four shifted quarter-chunk arrays, flattened, is the overlap-add of the frames. -/
theorem yfull_eq_ola (FR : (⟨S16x2048x1024, .f32⟩ : BufTy).Contents (Elt Ideal)) :
    yfull (F := Ideal) FR = Cert.Ola.ola FR := by
  funext i
  obtain ⟨b, p, rfl⟩ : ∃ (b : Fin 16) (p : Fin 525056), i = ix2 b p := ⟨i 0, i 1, eq_ix2 i⟩
  have hb := b.isLt
  have hp := p.isLt
  have hj : p.val / 256 < 2051 := by omega
  have hh : p.val % 256 < 256 := by omega
  unfold yfull
  refine (shapeCast_apply _ shapeCasts_S16x2051x256_S16x525056 (ix2 b p)
    (ix3 b (⟨p.val / 256, hj⟩ : Fin 2051) (⟨p.val % 256, hh⟩ : Fin 256)) (by
      rw [Shape.rowMajor_val_three, Shape.rowMajor_val_two]
      show (b.val * 2051 + p.val / 256) * 256 + p.val % 256 = b.val * 525056 + p.val
      omega)).trans ?_
  rw [addf_apply, addf_apply, addf_apply, addf_apply]
  have e0 := shifted_read 0 FR slices_S16x2048x1024_S16x2048x256_0_0_0 pads_S16x2048x256_S16x2051x256_000_030_000
    b ⟨p.val / 256, hj⟩ ⟨p.val % 256, hh⟩ (by omega)
  have e1 := shifted_read 1 FR slices_S16x2048x1024_S16x2048x256_0_0_256 pads_S16x2048x256_S16x2051x256_000_120_000
    b ⟨p.val / 256, hj⟩ ⟨p.val % 256, hh⟩ (by omega)
  have e2 := shifted_read 2 FR slices_S16x2048x1024_S16x2048x256_0_0_512 pads_S16x2048x256_S16x2051x256_000_210_000
    b ⟨p.val / 256, hj⟩ ⟨p.val % 256, hh⟩ (by omega)
  have e3 := shifted_read 3 FR slices_S16x2048x1024_S16x2048x256_0_0_768 pads_S16x2048x256_S16x2051x256_000_300_000
    b ⟨p.val / 256, hj⟩ ⟨p.val % 256, hh⟩ (by omega)
  have ez : broadcastInDim S16x2051x256 ![] bcast_S_S16x2051x256 (constant (F := Ideal) S_ .f32 0x00000000#32)
      (ix3 b (⟨p.val / 256, hj⟩ : Fin 2051) (⟨p.val % 256, hh⟩ : Fin 256)) = 0 := by
    refine (broadcastInDim_apply _ _ _ _ ix0 (fun a => a.elim0)).trans ?_
    rw [constant_apply, Ideal.ofBits_zero_f32]
  unfold shifted0 shifted1 shifted2 shifted3
  refine (congrArg₂ (· + ·) (congrArg₂ (· + ·) (congrArg₂ (· + ·) (congrArg₂ (· + ·) ez e0) e1) e2) e3).trans ?_
  unfold Cert.Ola.ola
  rw [Fin.sum_univ_four, zero_add]
  rfl

end Cert.KernelIdeal.Synth

end
-- ==== Proof.OlaSum.lean ====
/-
  The scatter's double sum is the overlap-add.
-/
import proofs.«108773_j25881472926130_1_alg».proof.Proof.Spec

noncomputable section

open scoped BigOperators

namespace Cert.Ola

open Idealize.ShloMosaic Idealize.ShloMosaic.ValueIdx

/-- For a fixed frame t, at most one sample k satisfies 256·t + k = p, namely k = p − 256·t when 256·t ≤ p and
    p − 256·t < 1024; so the inner sum is the frames array read at (b, t, p − 256·t), zero outside its range. -/
theorem inner_sum (D : (⟨3, ![16, 2048, 1024]⟩ : Shape).Idx → EReal) (b : Fin 16) (p : ℕ) (t : Fin 2048) :
    (∑ k : Fin 1024, if 256 * t.val + k.val = p then D (ix3 b t k) else 0)
      = if 256 * t.val ≤ p then ext D b.val t.val (p - 256 * t.val) else 0 := by
  by_cases h : 256 * t.val ≤ p ∧ p - 256 * t.val < 1024
  · rw [Finset.sum_eq_single (⟨p - 256 * t.val, h.2⟩ : Fin 1024)]
    · rw [if_pos (by show 256 * t.val + (p - 256 * t.val) = p; omega), if_pos h.1]
      unfold ext
      rw [dif_pos ⟨b.isLt, t.isLt, h.2⟩]
    · intro k _ hk
      rw [if_neg]
      intro hk'
      apply hk
      apply Fin.ext
      show k.val = p - 256 * t.val
      omega
    · intro hn; exact absurd (Finset.mem_univ _) hn
  · rw [Finset.sum_eq_zero]
    · by_cases h1 : 256 * t.val ≤ p
      · rw [if_pos h1]; unfold ext; rw [dif_neg]; intro hh; exact h ⟨h1, hh.2.2⟩
      · rw [if_neg h1]
    · intro k _
      rw [if_neg]
      intro hk
      apply h
      have := k.isLt
      constructor <;> omega

/-- For E vanishing outside [0, 2048) × [0, 1024), the sum over frames t of E(t, p − 256·t) has its non-zero terms
    only at t = j − m with m < 4, m ≤ j, j − m < 2048, where j = p / 256 and h = p % 256; there p − 256·t = 256·m + h.
    The map t ↦ j − t is a bijection between the two sets of surviving indices. -/
theorem outer_sum (E : ℕ → ℕ → EReal) (hE : ∀ t k, ¬ (t < 2048 ∧ k < 1024) → E t k = 0) (p : ℕ) :
    (∑ t : Fin 2048, if 256 * t.val ≤ p then E t.val (p - 256 * t.val) else 0)
      = ∑ m : Fin 4, if m.val ≤ p / 256 then E (p / 256 - m.val) (256 * m.val + p % 256) else 0 := by
  rw [Fin.sum_univ_eq_sum_range (fun t => if 256 * t ≤ p then E t (p - 256 * t) else 0) 2048,
    Fin.sum_univ_eq_sum_range (fun m => if m ≤ p / 256 then E (p / 256 - m) (256 * m + p % 256) else 0) 4]
  rw [← Finset.sum_filter_of_ne (s := Finset.range 2048) (p := fun t => t ≤ p / 256 ∧ p / 256 ≤ t + 3),
    ← Finset.sum_filter_of_ne (s := Finset.range 4) (p := fun m => m ≤ p / 256 ∧ p / 256 - m < 2048)]
  · apply Finset.sum_nbij' (fun t => p / 256 - t) (fun m => p / 256 - m)
    · intro t ht
      simp only [Finset.mem_filter, Finset.mem_range] at ht ⊢
      omega
    · intro m hm
      simp only [Finset.mem_filter, Finset.mem_range] at hm ⊢
      omega
    · intro t ht
      simp only [Finset.mem_filter, Finset.mem_range] at ht
      show p / 256 - (p / 256 - t) = t
      omega
    · intro m hm
      simp only [Finset.mem_filter, Finset.mem_range] at hm
      show p / 256 - (p / 256 - m) = m
      omega
    · intro t ht
      simp only [Finset.mem_filter, Finset.mem_range] at ht
      show (if 256 * t ≤ p then E t (p - 256 * t) else 0)
        = if p / 256 - t ≤ p / 256 then E (p / 256 - (p / 256 - t)) (256 * (p / 256 - t) + p % 256) else 0
      rw [if_pos (by omega), if_pos (by omega)]
      congr 1 <;> omega
  · intro m hm hne
    simp only [Finset.mem_range] at hm
    by_cases h1 : m ≤ p / 256
    · refine ⟨h1, ?_⟩
      by_contra h2
      apply hne
      show (if m ≤ p / 256 then E (p / 256 - m) (256 * m + p % 256) else 0) = 0
      rw [if_pos h1]
      exact hE _ _ (fun hh => h2 hh.1)
    · exfalso
      apply hne
      show (if m ≤ p / 256 then E (p / 256 - m) (256 * m + p % 256) else 0) = 0
      rw [if_neg h1]
  · intro t ht hne
    simp only [Finset.mem_range] at ht
    by_cases h1 : 256 * t ≤ p
    · refine ⟨by omega, ?_⟩
      by_contra h2
      apply hne
      show (if 256 * t ≤ p then E t (p - 256 * t) else 0) = 0
      rw [if_pos h1]
      exact hE _ _ (fun hh => by omega)
    · exfalso
      apply hne
      show (if 256 * t ≤ p then E t (p - 256 * t) else 0) = 0
      rw [if_neg h1]

/-- Summing frame samples (t, k) over all pairs that land on position p = 256·t + k gives the overlap-added value. -/
theorem sum_hits_eq_ola (D : (⟨3, ![16, 2048, 1024]⟩ : Shape).Idx → EReal) (b : Fin 16) (p : Fin 525056) :
    (∑ t : Fin 2048, ∑ k : Fin 1024, if 256 * t.val + k.val = p.val then D (ix3 b t k) else 0) = ola D (ix2 b p) := by
  rw [Finset.sum_congr rfl (fun t _ => inner_sum D b p.val t)]
  rw [outer_sum (ext D b.val) (fun t k h => by unfold ext; rw [dif_neg]; intro hh; exact h hh.2) p.val]
  rfl

end Cert.Ola

end
-- ==== Proof.LibScatterAddRows.lean ====
/-
  A row-wise accumulating scatter read at an entry, at the ideal values.

  The host's accumulating scatter of an [N, D] array of update rows into a [C, D] operand by an [N, 1] column of row
  indices (the update's second axis the window, the operand's first axis inserted and scattered to, the index vector
  on the indices' second axis) sends update row n whole to operand row idx(n), the index word read as a signed integer and
  not clamped; a row whose index is below 0 or not below C is dropped. So entry (k, e) of the result is the operand's
  entry plus the sum over the rows n of: update entry (n, e) when idx(n) is k, zero otherwise. The scatter of an [N]
  vector of updates into a [C] operand by the same column of indices reads the same way at entry k.

  The road: an update index lands at a given operand index exactly when, on every operand axis, the window's start plus
  the window coordinate is that index's coordinate (`resultIdx?_eq_some_iff`, for any dimension numbers). For these
  dimension numbers the start is the index word on the scattered axis and zero on the window axis, and the window
  coordinate is zero on the inserted axis and the update's column on the window axis; so update (n, e') lands at (k, e)
  exactly when idx(n) reads k and e' is e. The filtered sum over the update indices is then the double sum over rows and
  columns of an `if`, and the inner sum over the columns has one term.
-/
import Idealize.ShloMosaic.PureOps.Ideal.Laws
import Idealize.ShloMosaic.Lib.ValueIdx

noncomputable section

open scoped BigOperators

namespace Idealize.ShloMosaic.ScatterAddRows

open Idealize.ShloMosaic Idealize.ShloMosaic.ValueIdx

/-- An update index lands at i exactly when, on every operand axis, the window's start plus the window coordinate is
    i's coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hc
      have h' := Option.some.inj h
      intro a
      have h1 := congrArg (fun f => (f a).val) h'
      simp only at h1
      have h2 := hc a
      omega
    · exact absurd h (by simp)
  · intro h
    have hc : ∀ a, 0 ≤ d.start j idx a + d.window j a ∧ d.start j idx a + d.window j a < s.size a := by
      intro a
      have h1 := h a
      have h2 := (i a).isLt
      omega
    rw [dif_pos hc]
    congr 1
    funext a
    apply Fin.ext
    have h1 := h a
    simp only
    omega

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Rows
variable {C D N : ℕ} (wf : ScatterDims.WF ⟨2, ![C, D]⟩ ⟨2, ![N, 1]⟩ ⟨2, ![N, D]⟩ [1] [0] [0] 1)

/-- The index word an update row reads: the column of indices at (row, 0). -/
private theorem rows_siIdx (j : (⟨2, ![N, D]⟩ : Shape).Idx) (c) :
    (⟨[1], [0], [0], 1, wf⟩ : ScatterDims ⟨2, ![C, D]⟩ ⟨2, ![N, 1]⟩ ⟨2, ![N, D]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the scattered axis the window starts at the row's index word, read signed. -/
private theorem rows_start0 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 0
      = (idx (ix2 (j 0) (0 : Fin 1))).toInt := by
  unfold ScatterDims.start
  rw [dif_pos (List.mem_cons_self ..), rows_siIdx]
  rfl

/-- On the window axis the window starts at zero. -/
private theorem rows_start1 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 1 = 0 := by
  unfold ScatterDims.start
  rw [dif_neg (by simp)]

/-- The inserted axis has window coordinate zero. -/
private theorem rows_window0 (j : (⟨2, ![N, D]⟩ : Shape).Idx) :
    (⟨[1], [0], [0], 1, wf⟩ : ScatterDims ⟨2, ![C, D]⟩ ⟨2, ![N, 1]⟩ ⟨2, ![N, D]⟩).window j 0 = 0 := by
  rfl

/-- The window axis has the update's column as window coordinate. -/
private theorem rows_window1 (j : (⟨2, ![N, D]⟩ : Shape).Idx) :
    (⟨[1], [0], [0], 1, wf⟩ : ScatterDims ⟨2, ![C, D]⟩ ⟨2, ![N, 1]⟩ ⟨2, ![N, D]⟩).window j 1 = (j 1).val := by
  rfl

/-- Update index j lands at (k, e) exactly when its row's index word reads k and its column is e. -/
theorem rows_resultIdx?_iff {w : ℕ} (j : (⟨2, ![N, D]⟩ : Shape).Idx) (idx : IVec ⟨2, ![N, 1]⟩ w) (k : Fin C) (e : Fin D) :
    (⟨[1], [0], [0], 1, wf⟩ : ScatterDims ⟨2, ![C, D]⟩ ⟨2, ![N, 1]⟩ ⟨2, ![N, D]⟩).resultIdx? j idx = some (ix2 k e)
      ↔ (idx (ix2 (j 0) (0 : Fin 1))).toInt = (k.val : ℤ) ∧ j 1 = e := by
  rw [resultIdx?_eq_some_iff, Fin.forall_fin_two, rows_start0, rows_start1, rows_window0, rows_window1]
  constructor
  · rintro ⟨h0, h1⟩
    refine ⟨?_, Fin.ext ?_⟩
    · simpa using h0
    · have : ((j 1).val : ℤ) = (e.val : ℤ) := by simpa using h1
      exact_mod_cast this
  · rintro ⟨h0, h1⟩
    refine ⟨?_, ?_⟩
    · simpa using h0
    · subst h1; simp

end Rows

section Vec
variable {C N : ℕ} (wf : ScatterDims.WF ⟨1, ![C]⟩ ⟨2, ![N, 1]⟩ ⟨1, ![N]⟩ [] [0] [0] 1)

/-- The index word an update reads: the column of indices at (its position, 0). -/
private theorem vec_siIdx (j : (⟨1, ![N]⟩ : Shape).Idx) (c) :
    (⟨[], [0], [0], 1, wf⟩ : ScatterDims ⟨1, ![C]⟩ ⟨2, ![N, 1]⟩ ⟨1, ![N]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the operand's one axis the window starts at the update's index word, read signed. -/
private theorem vec_start0 {w : ℕ} (j : (⟨1, ![N]⟩ : Shape).Idx) (idx : IVec ⟨2, ![N, 1]⟩ w) :
    (⟨[], [0], [0], 1, wf⟩ : ScatterDims ⟨1, ![C]⟩ ⟨2, ![N, 1]⟩ ⟨1, ![N]⟩).start j idx 0
      = (idx (ix2 (j 0) (0 : Fin 1))).toInt := by
  unfold ScatterDims.start
  rw [dif_pos (List.mem_cons_self ..), vec_siIdx]
  rfl

/-- The operand's one axis is inserted: its window coordinate is zero. -/
private theorem vec_window0 (j : (⟨1, ![N]⟩ : Shape).Idx) :
    (⟨[], [0], [0], 1, wf⟩ : ScatterDims ⟨1, ![C]⟩ ⟨2, ![N, 1]⟩ ⟨1, ![N]⟩).window j 0 = 0 := by
  rfl

/-- Update index j lands at k exactly when its index word reads k. -/
theorem vec_resultIdx?_iff {w : ℕ} (j : (⟨1, ![N]⟩ : Shape).Idx) (idx : IVec ⟨2, ![N, 1]⟩ w) (k : Fin C) :
    (⟨[], [0], [0], 1, wf⟩ : ScatterDims ⟨1, ![C]⟩ ⟨2, ![N, 1]⟩ ⟨1, ![N]⟩).resultIdx? j idx = some (ix1 k)
      ↔ (idx (ix2 (j 0) (0 : Fin 1))).toInt = (k.val : ℤ) := by
  rw [resultIdx?_eq_some_iff, Fin.forall_fin_one, vec_start0, vec_window0]
  constructor
  · intro h0
    simpa using h0
  · intro h0
    simpa using h0

end Vec

/-- Rows of width D accumulated into a [C, D] operand by an [N, 1] column of row indices, read at (k, e). -/
theorem scatterAdd_rows_apply {C D N w : ℕ}
    (wf : ScatterDims.WF ⟨2, ![C, D]⟩ ⟨2, ![N, 1]⟩ ⟨2, ![N, D]⟩ [1] [0] [0] 1)
    (x : (⟨2, ![C, D]⟩ : Shape).Idx → EReal) (idx : IVec ⟨2, ![N, 1]⟩ w) (upd : (⟨2, ![N, D]⟩ : Shape).Idx → EReal)
    (k : Fin C) (e : Fin D) :
    Ideal.hostScatterAdd (⟨[1], [0], [0], 1, wf⟩ : ScatterDims ⟨2, ![C, D]⟩ ⟨2, ![N, 1]⟩ ⟨2, ![N, D]⟩) x idx upd (ix2 k e)
      = x (ix2 k e) + ∑ n : Fin N, if (idx (ix2 n (0 : Fin 1))).toInt = (k.val : ℤ) then upd (ix2 n e) else 0 := by
  unfold Ideal.hostScatterAdd
  congr 1
  rw [Finset.sum_filter, sum_idx2]
  refine Finset.sum_congr rfl fun n _ => ?_
  have hiff : ∀ b : Fin D,
      ((⟨[1], [0], [0], 1, wf⟩ : ScatterDims ⟨2, ![C, D]⟩ ⟨2, ![N, 1]⟩ ⟨2, ![N, D]⟩).resultIdx? (ix2 n b) idx = some (ix2 k e))
        ↔ ((idx (ix2 n (0 : Fin 1))).toInt = (k.val : ℤ) ∧ b = e) := fun b => rows_resultIdx?_iff wf (ix2 n b) idx k e
  simp only [hiff]
  by_cases hc : (idx (ix2 n (0 : Fin 1))).toInt = (k.val : ℤ)
  · simp [hc]
  · simp [hc]

/-- Scalars accumulated into a [C] operand by an [N, 1] column of indices, read at k. -/
theorem scatterAdd_vec_apply {C N w : ℕ}
    (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w) (upd : (⟨1, ![N]⟩ : Shape).Idx → EReal)
    (k : Fin C) :
    Ideal.hostScatterAdd (⟨[], [0], [0], 1, wf⟩ : ScatterDims ⟨1, ![C]⟩ ⟨2, ![N, 1]⟩ ⟨1, ![N]⟩) x idx upd (ix1 k)
      = x (ix1 k) + ∑ n : Fin N, if (idx (ix2 n (0 : Fin 1))).toInt = (k.val : ℤ) then upd (ix1 n) else 0 := by
  unfold Ideal.hostScatterAdd
  congr 1
  rw [Finset.sum_filter, sum_idx1]
  refine Finset.sum_congr rfl fun n _ => ?_
  exact if_congr (vec_resultIdx?_iff wf (ix1 n) idx k) rfl rfl

end Idealize.ShloMosaic.ScatterAddRows

end
-- ==== Proof.RefScatter.lean ====
/-
  The reference's accumulating scatter read at an entry.

  The scatter adds update (b', t, k) of a [16, 2048, 1024] array into a [16, 525056] array of zeros: the first update
  axis is the window and goes to the operand's first axis, the operand's second axis is inserted and scattered to, and
  the index word is read at (t, k, 0) of a [2048, 1024, 1] index array, signed and not clamped.

  The index word at (t, k) is the 32-bit word of t times 256 plus k; with t below 2048 and k below 1024 nothing wraps
  and the value 256·t + k is below 2³¹, so the word is not negative, the select that would add the operand's extent to a
  negative index keeps it, and read signed it is 256·t + k.

  An update index lands at an operand index exactly when, on every operand axis, the window's start plus the window
  coordinate is that index's coordinate. Here the start is zero on the first axis and the index word on the second,
  and the window coordinate is b' on the first axis and zero on the second; so update (b', t, k) lands at (b, p)
  exactly when b' = b and 256·t + k = p. The filtered sum over the update indices is the triple sum over (b', t, k) of
  an `if`; only the term b' = b of the outer sum is not zero, and the operand contributes zero.
-/
import proofs.«108773_j25881472926130_1_alg».proof.Proof.Gen.ReferenceIdeal.Read
import proofs.«108773_j25881472926130_1_alg».proof.Proof.LibScatterAddRows
import Idealize.ShloMosaic.Lib.StableHlo.Predicate

noncomputable section

open scoped BigOperators

namespace Cert.ReferenceIdeal.Synth

open Cert.ReferenceIdeal Cert.ReferenceIdeal.Gen Cert.ReferenceIdeal.Read Idealize.ShloMosaic Idealize.ShloMosaic.ValueIdx

/-! ## The index word -/

/-- The unselected index word at (t, k) is the word of 256·t + k. -/
private theorem word14 (i : S2048x1024.Idx) :
    val_main_v14 (F := Ideal) i = BitVec.ofNat 32 (i 0).val * 256#32 + BitVec.ofNat 32 (i 1).val := by
  rw [val_main_v14_apply, val_main_v12_apply, val_main_v13_apply, val_main_v9_apply, val_main_v7_apply,
    val_main_v8_apply, val_main_v11_apply, val_main_v6_apply, val_main_v10_apply, val_main_c_apply]
  rfl

/-- Its unsigned value is 256·t + k: nothing wraps. -/
private theorem word14_toNat (i : S2048x1024.Idx) :
    (val_main_v14 (F := Ideal) i).toNat = 256 * (i 0).val + (i 1).val := by
  have h0 : (i 0).val < 2048 := (i 0).isLt
  have h1 : (i 1).val < 1024 := (i 1).isLt
  rw [word14, BitVec.toNat_add, BitVec.toNat_mul, BitVec.toNat_ofNat, BitVec.toNat_ofNat]
  show (((i 0).val % 2 ^ 32) * 256 % 2 ^ 32 + (i 1).val % 2 ^ 32) % 2 ^ 32 = _
  omega

/-- Read signed it is 256·t + k too: it is below 2³¹. -/
private theorem word14_toInt (i : S2048x1024.Idx) :
    (val_main_v14 (F := Ideal) i).toInt = ((256 * (i 0).val + (i 1).val : ℕ) : ℤ) := by
  have h0 : (i 0).val < 2048 := (i 0).isLt
  have h1 : (i 1).val < 1024 := (i 1).isLt
  have hn := word14_toNat i
  rw [StableHlo.Predicate.toInt_eq_toNat_of_lt (by rw [hn]; omega), hn]

/-- The word is not negative, so the select that wraps a negative index keeps it. -/
private theorem word20 (i : S2048x1024.Idx) : val_main_v20 (F := Ideal) i = val_main_v14 (F := Ideal) i := by
  have h0 : (i 0).val < 2048 := (i 0).isLt
  have h1 : (i 1).val < 1024 := (i 1).isLt
  have hn := word14_toNat i
  rw [val_main_v20_apply, val_main_v17_apply, val_main_v16_apply, val_main_c_0_apply]
  have hc : ¬ IntOp.cmpi .slt (val_main_v14 (F := Ideal) i) 0#32 = 1#1 := by
    rw [StableHlo.Predicate.slt_iff_toNat (by rw [hn]; omega) (by decide)]
    exact Nat.not_lt_zero _
  exact if_neg hc

/-- The index word the scatter reads at position (t, k), read signed, is 256·t + k. -/
private theorem word21_toInt (t : Fin 2048) (k : Fin 1024) :
    (val_main_v21 (F := Ideal) (ix3 t k (0 : Fin 1))).toInt = ((256 * t.val + k.val : ℕ) : ℤ) := by
  rw [val_main_v21_apply, word20, word14_toInt]

/-! ## Where an update lands -/

/-- The index word update (b', t, k) reads: the index array at (t, k, 0). -/
private theorem sc_siIdx (b' : Fin 16) (t : Fin 2048) (k : Fin 1024) (c) :
    scatter_S16x525056_S2048x1024x1_S16x2048x1024_0_1_1_2.siIdx (ix3 b' t k) c = ix3 t k (0 : Fin 1) := by
  funext a
  match a with
  | ⟨0, _⟩ => exact Fin.ext rfl
  | ⟨1, _⟩ => exact Fin.ext rfl
  | ⟨2, _⟩ =>
    apply Fin.ext
    have hc : c.val < 1 := c.isLt
    show c.val = 0
    omega

/-- On the scattered axis the window starts at the index word, read signed. -/
private theorem sc_start1 {w : ℕ} (b' : Fin 16) (t : Fin 2048) (k : Fin 1024) (idx : IVec S2048x1024x1 w) :
    scatter_S16x525056_S2048x1024x1_S16x2048x1024_0_1_1_2.start (ix3 b' t k) idx 1
      = (idx (ix3 t k (0 : Fin 1))).toInt := by
  unfold ScatterDims.start
  rw [dif_pos (show (1 : Fin S16x525056.rank) ∈ scatter_S16x525056_S2048x1024x1_S16x2048x1024_0_1_1_2.scatterDimsToOperandDims from List.mem_singleton.mpr rfl), sc_siIdx]

/-- On the window axis the window starts at zero. -/
private theorem sc_start0 {w : ℕ} (b' : Fin 16) (t : Fin 2048) (k : Fin 1024) (idx : IVec S2048x1024x1 w) :
    scatter_S16x525056_S2048x1024x1_S16x2048x1024_0_1_1_2.start (ix3 b' t k) idx 0 = 0 := by
  unfold ScatterDims.start
  rw [dif_neg (show ¬ (0 : Fin S16x525056.rank) ∈ scatter_S16x525056_S2048x1024x1_S16x2048x1024_0_1_1_2.scatterDimsToOperandDims by decide)]

/-- The window axis has the update's first coordinate as window coordinate. -/
private theorem sc_window0 (b' : Fin 16) (t : Fin 2048) (k : Fin 1024) :
    scatter_S16x525056_S2048x1024x1_S16x2048x1024_0_1_1_2.window (ix3 b' t k) 0 = b'.val := by
  rfl

/-- The inserted axis has window coordinate zero. -/
private theorem sc_window1 (b' : Fin 16) (t : Fin 2048) (k : Fin 1024) :
    scatter_S16x525056_S2048x1024x1_S16x2048x1024_0_1_1_2.window (ix3 b' t k) 1 = 0 := by
  rfl

/-- Update (b', t, k) lands at (b, p) exactly when b' is b and its index word reads p. -/
private theorem sc_resultIdx?_iff {w : ℕ} (b' : Fin 16) (t : Fin 2048) (k : Fin 1024) (idx : IVec S2048x1024x1 w)
    (b : Fin 16) (p : Fin 525056) :
    scatter_S16x525056_S2048x1024x1_S16x2048x1024_0_1_1_2.resultIdx? (ix3 b' t k) idx = some (ix2 b p)
      ↔ b' = b ∧ (idx (ix3 t k (0 : Fin 1))).toInt = (p.val : ℤ) := by
  rw [ScatterAddRows.resultIdx?_eq_some_iff, Fin.forall_fin_two, sc_start0, sc_start1, sc_window0, sc_window1]
  constructor
  · rintro ⟨h0, h1⟩
    refine ⟨Fin.ext ?_, ?_⟩
    · have : (b'.val : ℤ) = (b.val : ℤ) := by simpa using h0
      exact_mod_cast this
    · simpa using h1
  · rintro ⟨h0, h1⟩
    refine ⟨?_, ?_⟩
    · subst h0; simp
    · simpa using h1

/-! ## Sums over a rank-3 index set -/

/-- A rank-3 index set is the product of its three coordinate ranges … -/
private def idxEquiv3 {n0 n1 n2 : ℕ} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

/-- … so a sum over it is the triple sum over the coordinates. -/
private theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The scatter at an entry -/

/-- Entry (b, p) of the scatter of the frames D into zeros at positions 256·t + k: the sum of D(b, t, k) over the pairs
    (t, k) with 256·t + k = p. -/
theorem scatter_apply (D : (⟨S16x2048x1024, .f32⟩ : BufTy).Contents (Elt Ideal)) (b : Fin 16) (p : Fin 525056) :
    Host.scatterAdd (F := Ideal) (φ := .f32) scatter_S16x525056_S2048x1024x1_S16x2048x1024_0_1_1_2 (val_main_v15 (F := Ideal)) (val_main_v21 (F := Ideal)) D (ix2 b p)
      = ∑ t : Fin 2048, ∑ k : Fin 1024, if 256 * t.val + k.val = p.val then D (ix3 b t k) else 0 := by
  have hx : val_main_v15 (F := Ideal) (ix2 b p) = 0 := by
    rw [val_main_v15_apply, val_main_cst_apply]
    exact Ideal.ofBits_zero_f32
  show Ideal.hostScatterAdd scatter_S16x525056_S2048x1024x1_S16x2048x1024_0_1_1_2 (val_main_v15 (F := Ideal))
    (val_main_v21 (F := Ideal)) D (ix2 b p) = _
  unfold Ideal.hostScatterAdd
  rw [hx, zero_add, Finset.sum_filter, sum_idx3, Finset.sum_eq_single b]
  · refine Finset.sum_congr rfl fun t _ => Finset.sum_congr rfl fun k _ => ?_
    refine if_congr ?_ rfl rfl
    rw [sc_resultIdx?_iff, word21_toInt]
    constructor
    · rintro ⟨_, h⟩
      exact_mod_cast h
    · intro h
      exact ⟨rfl, by exact_mod_cast h⟩
  · intro b' _ hb'
    refine Finset.sum_eq_zero fun t _ => Finset.sum_eq_zero fun k _ => ?_
    exact if_neg fun h => hb' ((sc_resultIdx?_iff b' t k _ b p).mp h).1
  · intro h
    exact absurd (Finset.mem_univ b) h

end Cert.ReferenceIdeal.Synth

end
-- ==== Proof.RefProduct.lean ====
/-
  The reference's frames, entry by entry.
-/
import proofs.«108773_j25881472926130_1_alg».proof.Proof.Gen.ReferenceIdeal.Read

noncomputable section

open scoped BigOperators

namespace Cert.ReferenceIdeal.Synth

open Cert.ReferenceIdeal Cert.ReferenceIdeal.Gen Cert.ReferenceIdeal.Read Idealize.ShloMosaic Idealize.ShloMosaic.ValueIdx

/-- The left operand is read at frame (b, t), contracted coordinate c. -/
theorem lidx_ix3 (b : Fin 16) (t : Fin 2048) (k c : Fin 1024) : lidx_main_v5 (ix3 b t k) c = ix3 b t c :=
  funext fun a => Fin.ext (by match a with | ⟨0, _⟩ => rfl | ⟨1, _⟩ => rfl | ⟨2, _⟩ => rfl)

/-- The right operand is read at row c, column k. -/
theorem ridx_ix3 (b : Fin 16) (t : Fin 2048) (k c : Fin 1024) : ridx_main_v5 (ix3 b t k) c = ix2 c k :=
  funext fun a => Fin.ext (by match a with | ⟨0, _⟩ => rfl | ⟨1, _⟩ => rfl)

/-- Entry (b, t, k) of the reference's frames: frame (b, t)'s channels against column k of the synthesis matrix. -/
theorem dot_apply (x0 : (⟨S16x2x2048x512, .f32⟩ : BufTy).Contents (Elt Ideal)) (x1 : (⟨S1024x1024, .f32⟩ : BufTy).Contents (Elt Ideal))
    (b : Fin 16) (t : Fin 2048) (k : Fin 1024) :
    val_main_v5 (F := Ideal) x0 x1 (ix3 b t k) = ∑ c : Fin 1024, val_main_v4 (F := Ideal) x0 (ix3 b t c) * x1 (ix2 c k) := by
  refine (val_main_v5_apply x0 x1 (ix3 b t k)).trans ?_
  refine Finset.sum_congr rfl fun c _ => ?_
  rw [lidx_ix3 b t k c, ridx_ix3 b t k c]

end Cert.ReferenceIdeal.Synth

end
-- ==== Proof.Bridge.lean ====
/-
  The two idealized programs compute one function of the arguments.

  Both lay the two half-spectra side by side to get each frame's 1024 channels, and both multiply by the synthesis
  matrix W: the kernel as one [32768, 1024] × [1024, 1024] product computed block row by block row and regrouped as
  frames, the reference as a contraction over the channel axis of the [16, 2048, 1024] frames. Entry (b, t, k) is
  Σ_c channels(b, t, c) · W(c, k) either way.
  Both then overlap-add the frames with hop 256: the kernel adds four zero-padded, shifted quarter-chunk arrays; the
  reference scatters frame sample (t, k) to position 256·t + k and adds collisions. Position p = 256·j + h receives
  exactly the samples 256·m + h of the frames j − m, m < 4, that exist, in both; sums of extended reals do not depend on
  order or grouping, so the two signals agree entry by entry, infinities included.
  Both then keep samples 384 … 384 + 524287, double, and divide by (scale + 1e-7): the same operations on equal arrays.
-/
import proofs.«108773_j25881472926130_1_alg».proof.Proof.KernelValue
import proofs.«108773_j25881472926130_1_alg».proof.Proof.KernelOla
import proofs.«108773_j25881472926130_1_alg».proof.Proof.OlaSum
import proofs.«108773_j25881472926130_1_alg».proof.Proof.RefScatter
import proofs.«108773_j25881472926130_1_alg».proof.Proof.RefProduct

noncomputable section

namespace Cert.Proof.Bridge

open Idealize.ShloMosaic Idealize.ShloMosaic.ValueIdx

/-- The regrouped product is the reference's frames. -/
theorem frames_eq (x0 : (⟨Cert.KernelIdeal.S16x2x2048x512, .f32⟩ : BufTy).Contents (Elt Ideal))
    (x1 : (⟨Cert.KernelIdeal.S1024x1024, .f32⟩ : BufTy).Contents (Elt Ideal)) :
    shapeCast Cert.KernelIdeal.S16x2048x1024 (Cert.KernelIdeal.Synth.prodRows (Cert.KernelIdeal.Synth.frameRows (F := Ideal) x0) x1)
        Cert.KernelIdeal.Gen.shapeCasts_S32768x1024_S16x2048x1024
      = Cert.ReferenceIdeal.Read.val_main_v5 (F := Ideal) x0 x1 := by
  funext i
  obtain ⟨b, t, k, rfl⟩ : ∃ (b : Fin 16) (t : Fin 2048) (k : Fin 1024), i = ix3 b t k := ⟨i 0, i 1, i 2, eq_ix3 i⟩
  exact (Cert.KernelIdeal.Synth.frames_apply (Cert.KernelIdeal.Synth.channels (F := Ideal) x0) x1 b t k).trans
    (Cert.ReferenceIdeal.Synth.dot_apply x0 x1 b t k).symm

/-- The reference's scattered signal is the overlap-add of its frames. -/
theorem scatter_eq_ola (x0 : (⟨Cert.ReferenceIdeal.S16x2x2048x512, .f32⟩ : BufTy).Contents (Elt Ideal))
    (x1 : (⟨Cert.ReferenceIdeal.S1024x1024, .f32⟩ : BufTy).Contents (Elt Ideal)) :
    Cert.ReferenceIdeal.Read.val_main_v22 (F := Ideal) x0 x1 = Cert.Ola.ola (Cert.ReferenceIdeal.Read.val_main_v5 (F := Ideal) x0 x1) := by
  funext i
  obtain ⟨b, p, rfl⟩ : ∃ (b : Fin 16) (p : Fin 525056), i = ix2 b p := ⟨i 0, i 1, eq_ix2 i⟩
  exact (Cert.ReferenceIdeal.Synth.scatter_apply (Cert.ReferenceIdeal.Read.val_main_v5 (F := Ideal) x0 x1) b p).trans
    (Cert.Ola.sum_hits_eq_ola _ b p)

/-- The kernel program's result function is the reference's last stage. -/
theorem result_eq (x0 : (⟨Cert.KernelIdeal.S16x2x2048x512, .f32⟩ : BufTy).Contents (Elt Ideal))
    (x1 : (⟨Cert.KernelIdeal.S1024x1024, .f32⟩ : BufTy).Contents (Elt Ideal))
    (x2 : (⟨Cert.KernelIdeal.S524288, .f32⟩ : BufTy).Contents (Elt Ideal)) :
    Cert.KernelIdeal.Synth.result x0 x1 x2 = Cert.ReferenceIdeal.Read.val_main_v30 (F := Ideal) x0 x1 x2 := by
  unfold Cert.KernelIdeal.Synth.result
  rw [frames_eq, Cert.KernelIdeal.Synth.yfull_eq_ola, ← scatter_eq_ola]
  rfl

end Cert.Proof.Bridge

end
-- ==== Proof.lean ====
/-
  The certificate: the inverse-DFT synthesis with overlap-add, as a Pallas matrix product plus shift-and-add host code,
  against its jnp reference (an einsum and a scatter-add).

  The three frames: each kernel program is host operations, one pipelined region whose body stores the product of its
  two input blocks, and host operations that write only their own buffers; the reference is host operations only.
  The idealization rewrote nothing, so there is nothing to preserve. At the ideal values both programs end with
  2·crop(overlap-add(channels · W)) / (scale + 1e-7), the overlap-add computed in two arrangements of one sum.
-/
import proofs.«108773_j25881472926130_1_alg».proof.Defs
import proofs.«108773_j25881472926130_1_alg».proof.Proof.Gen.Kernel
import proofs.«108773_j25881472926130_1_alg».proof.Proof.Gen.KernelIdeal
import proofs.«108773_j25881472926130_1_alg».proof.Proof.Gen.ReferenceIdeal
import proofs.«108773_j25881472926130_1_alg».proof.Proof.Gen.Pre_finite_inputs
import proofs.«108773_j25881472926130_1_alg».proof.Proof.Gen.ReferenceIdeal.Run
import proofs.«108773_j25881472926130_1_alg».proof.Proof.Gen.ReferenceIdeal.Read
import proofs.«108773_j25881472926130_1_alg».proof.Proof.FrameBits
import proofs.«108773_j25881472926130_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Synth.frame m ρ

theorem frame_kernelIdeal : Cert.frame_KernelIdeal := fun m ρ _ => Cert.KernelIdeal.Synth.frame m ρ

/-- The reference is host operations only: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with one array: the kernel's result function of the
    arguments, which is the reference's last stage. -/
theorem algebraic : Cert.algebraic_KernelIdeal_ReferenceIdeal := by
  intro m ρ m' ρ' _ hagree
  refine ⟨fun c => Cert.KernelIdeal.Synth.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Synth.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v30_eq _ _ _).trans (Cert.Proof.Bridge.result_eq _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
